-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x8 : Shape := ⟨2, ![1024, 8]⟩
abbrev S64x1024x1024 : Shape := ⟨3, ![64, 1024, 1024]⟩
abbrev S64x512x1024 : Shape := ⟨3, ![64, 512, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x512x1024 : S_.BroadcastsInDim S64x512x1024 (![] : Fin 0 → Fin S64x512x1024.rank)
  reducesTo_S64x512x1024_S_d0_1_2 : S64x512x1024.ReducesTo [0, 1, 2] S_

variable [Facts]

def fn_part1 {F : FTy → Type} [FloatOps F] (main_v13 : IVec S_ 1) (main_v16 : IVec S64x512x1024 1) : IVec S_ 1 :=
  let main_c_5 : IVec S_ 1 := constantI S_ 1 1#1
  let main_v17 : IVec S_ 1 := (fun x v => Host.reduce IntOp.andi x v reducesTo_S64x512x1024_S_d0_1_2 h_S_) main_v16 main_c_5
  let main_v18 : IVec S_ 1 := andi main_v13 main_v17
  main_v18

def fn {F : FTy → Type} [FloatOps F] (main_arg0 : FVec F S1024x1024 .f32) (main_arg1 : FVec F S1024x8 .f32) (main_arg2 : IVec S1024x8 32) (main_arg3 : FVec F S64x1024x1024 .f32) (main_arg4 : FVec F S64x512x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x1024x1024 .f32 := Host.absf main_arg3
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x512x1024 .f32 := Host.absf main_arg4
  let main_cst_4 : FVec F S_ .f32 := constant S_ .f32 0x7F800000#32
  let main_v15 : FVec F S64x512x1024 .f32 := broadcastInDim S64x512x1024 ![] bcast_S_S64x512x1024 main_cst_4
  let main_v16 : IVec S64x512x1024 1 := cmpf .olt main_v14 main_v15
  fn_part1 (F := F) main_v13 main_v16
-- ==== Kernel.lean ====
abbrev S1024x1024 : Shape := ⟨2, ![1024, 1024]⟩
abbrev S1024x8 : Shape := ⟨2, ![1024, 8]⟩
abbrev S64x1024x1024 : Shape := ⟨3, ![64, 1024, 1024]⟩
abbrev S64x512x1024 : Shape := ⟨3, ![64, 512, 1024]⟩
abbrev S8192 : Shape := ⟨1, ![8192]⟩
abbrev S_ : Shape := ⟨0, ![]⟩
abbrev S8192x1 : Shape := ⟨2, ![8192, 1]⟩
abbrev S8192x1024 : Shape := ⟨2, ![8192, 1024]⟩
abbrev S64 : Shape := ⟨1, ![64]⟩
abbrev S64x256x1024 : Shape := ⟨3, ![64, 256, 1024]⟩
abbrev S8192x2 : Shape := ⟨2, ![8192, 2]⟩
abbrev S1x256x1024 : Shape := ⟨3, ![1, 256, 1024]⟩
abbrev S1x1024x1024 : Shape := ⟨3, ![1, 1024, 1024]⟩
abbrev S1x512x1024 : Shape := ⟨3, ![1, 512, 1024]⟩
abbrev S256x1024 : Shape := ⟨2, ![256, 1024]⟩
abbrev S256x512 : Shape := ⟨2, ![256, 512]⟩
abbrev S512x1024 : Shape := ⟨2, ![512, 1024]⟩

abbrev nBuf : Space → Nat
  | .hbm => 127
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S1024x8, .i32⟩
  | .hbm, ⟨3, _⟩ => ⟨S64x1024x1024, .f32⟩
  | .hbm, ⟨4, _⟩ => ⟨S64x512x1024, .f32⟩
  | .hbm, ⟨5, _⟩ => ⟨S8192, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192, .i32⟩
  | .hbm, ⟨18, _⟩ => ⟨S_, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x1024, .f32⟩
  | .hbm, ⟨45, _⟩ => ⟨S_, .i32⟩
  | .hbm, ⟨46, _⟩ => ⟨S64, .i32⟩
  | .hbm, ⟨47, _⟩ => ⟨S_, .i32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S_, .i32⟩
  | .hbm, ⟨60, _⟩ => ⟨S8192, .i32⟩
  | .hbm, ⟨61, _⟩ => ⟨S64, .i32⟩
  | .hbm, ⟨62, _⟩ => ⟨S_, .i32⟩
  | .hbm, ⟨63, _⟩ => ⟨S_, .i32⟩
  | .hbm, ⟨64, _⟩ => ⟨S64, .i32⟩
  | .hbm, ⟨65, _⟩ => ⟨S64, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192, .i32⟩
  | .hbm, ⟨76, _⟩ => ⟨S8192, .i32⟩
  | .hbm, ⟨77, _⟩ => ⟨S_, .f32⟩
  | .hbm, ⟨78, _⟩ => ⟨S64x256x1024, .f32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .i32⟩
  | .hbm, ⟨86, _⟩ => ⟨S_, .i32⟩
  | .hbm, ⟨87, _⟩ => ⟨S8192, .i32⟩
  | .hbm, ⟨88, _⟩ => ⟨S8192, .i1⟩
  | .hbm, ⟨89, _⟩ => ⟨S_, .i32⟩
  | .hbm, ⟨90, _⟩ => ⟨S8192, .i32⟩
  | .hbm, ⟨91, _⟩ => ⟨S8192, .i32⟩
  | .hbm, ⟨92, _⟩ => ⟨S8192, .i32⟩
  | .hbm, ⟨93, _⟩ => ⟨S8192x1, .i32⟩
  | .hbm, ⟨94, _⟩ => ⟨S8192x1, .i32⟩
  | .hbm, ⟨95, _⟩ => ⟨S8192x2, .i32⟩
  | .hbm, ⟨96, _⟩ => ⟨S64x256x1024, .f32⟩
  | .hbm, ⟨97, _⟩ => ⟨S64x256x1024, .f32⟩
  | .hbm, ⟨98, _⟩ => ⟨S_, .i32⟩
  | .hbm, ⟨99, _⟩ => ⟨S8192, .i32⟩
  | .hbm, ⟨100, _⟩ => ⟨S8192, .i1⟩
  | .hbm, ⟨101, _⟩ => ⟨S_, .i32⟩
  | .hbm, ⟨102, _⟩ => ⟨S8192, .i32⟩
  | .hbm, ⟨103, _⟩ => ⟨S8192, .i32⟩
  | .hbm, ⟨104, _⟩ => ⟨S8192, .i32⟩
  | .hbm, ⟨105, _⟩ => ⟨S_, .i32⟩
  | .hbm, ⟨106, _⟩ => ⟨S8192, .i32⟩
  | .hbm, ⟨107, _⟩ => ⟨S8192, .i1⟩
  | .hbm, ⟨108, _⟩ => ⟨S_, .i32⟩
  | .hbm, ⟨109, _⟩ => ⟨S8192, .i32⟩
  | .hbm, ⟨110, _⟩ => ⟨S8192, .i32⟩
  | .hbm, ⟨111, _⟩ => ⟨S8192, .i32⟩
  | .hbm, ⟨112, _⟩ => ⟨S8192x1, .i32⟩
  | .hbm, ⟨113, _⟩ => ⟨S8192x1, .i32⟩
  | .hbm, ⟨114, _⟩ => ⟨S8192x2, .i32⟩
  | .hbm, ⟨115, _⟩ => ⟨S8192x1024, .f32⟩
  | .hbm, ⟨116, _⟩ => ⟨S_, .f32⟩
  | .hbm, ⟨117, _⟩ => ⟨S8192x1024, .f32⟩
  | .hbm, ⟨118, _⟩ => ⟨S_, .i32⟩
  | .hbm, ⟨119, _⟩ => ⟨S8192, .i32⟩
  | .hbm, ⟨120, _⟩ => ⟨S8192, .i1⟩
  | .hbm, ⟨121, _⟩ => ⟨S_, .i32⟩
  | .hbm, ⟨122, _⟩ => ⟨S8192, .i32⟩
  | .hbm, ⟨123, _⟩ => ⟨S8192, .i32⟩
  | .hbm, ⟨124, _⟩ => ⟨S8192, .i32⟩
  | .hbm, ⟨125, _⟩ => ⟨S8192x1, .i32⟩
  | .hbm, ⟨126, _⟩ => ⟨S8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x256x1024, .f32⟩
  | .local _ .vmem, ⟨7, _⟩ => ⟨S1x256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_call2_v0 : Ref sig .tc := ⟨.hbm, 48, rfl⟩
abbrev main_call2_v1 : Ref sig .tc := ⟨.hbm, 49, rfl⟩
abbrev main_v18 : Ref sig .tc := ⟨.hbm, 50, rfl⟩
abbrev main_c_6 : Ref sig .tc := ⟨.hbm, 51, rfl⟩
abbrev main_v19 : Ref sig .tc := ⟨.hbm, 52, rfl⟩
abbrev main_v20 : Ref sig .tc := ⟨.hbm, 53, rfl⟩
abbrev main_c_7 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_8 : Ref sig .tc := ⟨.hbm, 59, rfl⟩
abbrev main_v25 : Ref sig .tc := ⟨.hbm, 60, rfl⟩
abbrev main_v26 : Ref sig .tc := ⟨.hbm, 61, rfl⟩
abbrev main_call3_call0_c : Ref sig .tc := ⟨.hbm, 62, rfl⟩
abbrev main_call3_call0_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_9 : Ref sig .tc := ⟨.hbm, 67, rfl⟩
abbrev main_v30 : Ref sig .tc := ⟨.hbm, 68, rfl⟩
abbrev main_v31 : Ref sig .tc := ⟨.hbm, 69, rfl⟩
abbrev main_c_10 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst : Ref sig .tc := ⟨.hbm, 77, rfl⟩
abbrev main_v38 : Ref sig .tc := ⟨.hbm, 78, rfl⟩
abbrev main_c_11 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_13 : Ref sig .tc := ⟨.hbm, 86, rfl⟩
abbrev main_v44 : Ref sig .tc := ⟨.hbm, 87, rfl⟩
abbrev main_v45 : Ref sig .tc := ⟨.hbm, 88, rfl⟩
abbrev main_c_14 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_15 : Ref sig .tc := ⟨.hbm, 98, rfl⟩
abbrev main_v54 : Ref sig .tc := ⟨.hbm, 99, rfl⟩
abbrev main_v55 : Ref sig .tc := ⟨.hbm, 100, rfl⟩
abbrev main_c_16 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_17 : Ref sig .tc := ⟨.hbm, 105, rfl⟩
abbrev main_v59 : Ref sig .tc := ⟨.hbm, 106, rfl⟩
abbrev main_v60 : Ref sig .tc := ⟨.hbm, 107, rfl⟩
abbrev main_c_18 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_19 : Ref sig .tc := ⟨.hbm, 116, rfl⟩
abbrev main_v68 : Ref sig .tc := ⟨.hbm, 117, rfl⟩
abbrev main_c_20 : Ref sig .tc := ⟨.hbm, 118, rfl⟩
abbrev main_v69 : Ref sig .tc := ⟨.hbm, 119, rfl⟩
abbrev main_v70 : Ref sig .tc := ⟨.hbm, 120, rfl⟩
abbrev main_c_21 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x8_S8192 : S1024x8.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S64x256x1024 : S_.BroadcastsInDim S64x256x1024 (![] : Fin 0 → Fin S64x256x1024.rank)
  concatenates_S8192x1_S8192x1_S8192x2_d1 : Shape.Concatenates [S8192x1, S8192x1] S8192x2 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S256x1024_o0_0_S256x512 : S256x1024.Slices ![0, 0] S256x512
  slices_S256x1024_o0_512_S256x512 : S256x1024.Slices ![0, 512] S256x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S256x1024_S1x256x1024 : S256x1024.ShapeCasts S1x256x1024
  bcast_S_S8192x1024 : S_.BroadcastsInDim S8192x1024 (![] : Fin 0 → Fin S8192x1024.rank)
  gather_S8192_S8192x1_S8192_n_0_n_n_0_1_1_wf : GatherDims.WF S8192 S8192x1 S8192 [] [0] [] [0] [] 1 ![1]
  gather_S1024x1024_S8192x1_S8192x1024_1_0_n_n_0_1_11024_wf : GatherDims.WF S1024x1024 S8192x1 S8192x1024 [1] [0] [] [0] [] 1 ![1, 1024]
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  scatter_S64x256x1024_S8192x2_S8192x1024_1_01_01_1_wf : ScatterDims.WF S64x256x1024 S8192x2 S8192x1024 [1] [0, 1] [0, 1] 1
  dot_S256x1024_S1024x1024_S256x1024_1_0_0_1_n_n_wf : DotDims.WF S256x1024 S1024x1024 S256x1024 [1] [0] [0] [1] [] []
  dot_S256x512_S512x1024_S256x1024_1_0_0_1_n_n_wf : DotDims.WF S256x512 S512x1024 S256x1024 [1] [0] [0] [1] [] []
  gather_S64x256x1024_S8192x2_S8192x1024_1_01_n_n_01_1_111024_wf : GatherDims.WF S64x256x1024 S8192x2 S8192x1024 [1] [0, 1] [] [0, 1] [] 1 ![1, 1, 1024]
  scatter_S8192x1024_S8192x1_S8192x1024_1_0_0_1_wf : ScatterDims.WF S8192x1024 S8192x1 S8192x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S64x512x1024.size a
  hwx0_2 : ∀ i : grid0.Coords, EltTy.bits .f32 = 32 ∨ (Rect.block (s := S64x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x256x1024.size a
  hwx0_3 : ∀ i : grid0.Coords, EltTy.bits .f32 = 32 ∨ (Rect.block (s := S64x256x1024) S1x256x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S1024x1024_S8192x1_S8192x1024_1_0_n_n_0_1_11024 : GatherDims S1024x1024 S8192x1 S8192x1024 where
  offsetDims := [1]
  collapsedSliceDims := [0]
  operandBatchingDims := []
  startIndicesBatchingDims := []
  startIndexMap := [0]
  indexVectorDim := 1
  sliceSizes := ![1, 1024]
  wf := gather_S1024x1024_S8192x1_S8192x1024_1_0_n_n_0_1_11024_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def scatter_S64x256x1024_S8192x2_S8192x1024_1_01_01_1 : ScatterDims S64x256x1024 S8192x2 S8192x1024 where
  updateWindowDims := [1]
  insertedWindowDims := [0, 1]
  scatterDimsToOperandDims := [0, 1]
  indexVectorDim := 1
  wf := scatter_S64x256x1024_S8192x2_S8192x1024_1_01_01_1_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def gather_S64x256x1024_S8192x2_S8192x1024_1_01_n_n_01_1_111024 : GatherDims S64x256x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S64x256x1024_S8192x2_S8192x1024_1_01_n_n_01_1_111024_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf

abbrev win0_0 : Pipeline.Window sig grid0 :=
  Pipeline.Window.ofSpec (Memref.whole main_v52) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x8 : Shape := ⟨2, ![1024, 8]⟩
abbrev S64x1024x1024 : Shape := ⟨3, ![64, 1024, 1024]⟩
abbrev S64x512x1024 : Shape := ⟨3, ![64, 512, 1024]⟩
abbrev S8192 : Shape := ⟨1, ![8192]⟩
abbrev S_ : Shape := ⟨0, ![]⟩
abbrev S8192x1 : Shape := ⟨2, ![8192, 1]⟩
abbrev S8192x1024 : Shape := ⟨2, ![8192, 1024]⟩
abbrev S64 : Shape := ⟨1, ![64]⟩
abbrev S64x256x1024 : Shape := ⟨3, ![64, 256, 1024]⟩
abbrev S8192x2 : Shape := ⟨2, ![8192, 2]⟩
abbrev S64x256x512 : Shape := ⟨3, ![64, 256, 512]⟩

abbrev nBuf : Space → Nat
  | .hbm => 140
  | .vmem => 0
  | .smem => 0
  | _ => 0

abbrev hbmTy0_0 (i : Nat) : BufTy := match i % 128 with
  | 0 => ⟨S1024x1024, .f32⟩
  | 1 => ⟨S1024x8, .f32⟩
  | 2 => ⟨S1024x8, .i32⟩
  | 3 => ⟨S64x1024x1024, .f32⟩
  | 4 => ⟨S64x512x1024, .f32⟩
  | 5 => ⟨S8192, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192, .i32⟩
  | 18 => ⟨S_, .i32⟩
  | 19 => ⟨S_, .i32⟩
  | 20 => ⟨S8192, .i32⟩
  | 21 => ⟨S8192, .i32⟩
  | 22 => ⟨S8192, .i32⟩
  | 23 => ⟨S_, .i32⟩
  | 24 => ⟨S8192, .i32⟩
  | 25 => ⟨S8192, .i1⟩
  | 26 => ⟨S8192, .i32⟩
  | 27 => ⟨S8192, .i32⟩
  | 28 => ⟨S_, .i32⟩
  | 29 => ⟨S8192, .i32⟩
  | 30 => ⟨S8192, .i1⟩
  | 31 => ⟨S8192, .i1⟩
  | 32 => ⟨S_, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x1024, .f32⟩
  | 45 => ⟨S_, .i32⟩
  | 46 => ⟨S64, .i32⟩
  | 47 => ⟨S_, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S_, .i32⟩
  | 60 => ⟨S8192, .i32⟩
  | 61 => ⟨S64, .i32⟩
  | 62 => ⟨S_, .i32⟩
  | 63 => ⟨S_, .i32⟩
  | 64 => ⟨S64, .i32⟩
  | 65 => ⟨S64, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192, .i32⟩
  | 76 => ⟨S8192, .i32⟩
  | 77 => ⟨S_, .f32⟩
  | 78 => ⟨S64x256x1024, .f32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x1, .i32⟩
  | 95 => ⟨S8192x2, .i32⟩
  | 96 => ⟨S64x256x1024, .f32⟩
  | 97 => ⟨S64x256x1024, .f32⟩
  | 98 => ⟨S64x256x512, .f32⟩
  | 99 => ⟨S64x256x512, .f32⟩
  | 100 => ⟨S64x256x512, .f32⟩
  | 101 => ⟨S64x256x512, .f32⟩
  | 102 => ⟨S_, .f32⟩
  | 103 => ⟨S64x256x512, .f32⟩
  | 104 => ⟨S64x256x512, .f32⟩
  | 105 => ⟨S_, .f32⟩
  | 106 => ⟨S64x256x512, .f32⟩
  | 107 => ⟨S64x256x512, .f32⟩
  | 108 => ⟨S64x256x512, .f32⟩
  | 109 => ⟨S64x256x512, .f32⟩
  | 110 => ⟨S64x256x1024, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x1, .i32⟩
  | 127 => ⟨S8192x2, .i32⟩
  | _ => ⟨S1024x1024, .f32⟩

abbrev hbmTy0_1 (i : Nat) : BufTy := match i % 128 with
  | 0 => ⟨S8192x1024, .f32⟩
  | 1 => ⟨S_, .f32⟩
  | 2 => ⟨S8192x1024, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_call2_v0 : Ref sig .tc := ⟨.hbm, 48, rfl⟩
abbrev main_call2_v1 : Ref sig .tc := ⟨.hbm, 49, rfl⟩
abbrev main_v18 : Ref sig .tc := ⟨.hbm, 50, rfl⟩
abbrev main_c_6 : Ref sig .tc := ⟨.hbm, 51, rfl⟩
abbrev main_v19 : Ref sig .tc := ⟨.hbm, 52, rfl⟩
abbrev main_v20 : Ref sig .tc := ⟨.hbm, 53, rfl⟩
abbrev main_c_7 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_8 : Ref sig .tc := ⟨.hbm, 59, rfl⟩
abbrev main_v25 : Ref sig .tc := ⟨.hbm, 60, rfl⟩
abbrev main_v26 : Ref sig .tc := ⟨.hbm, 61, rfl⟩
abbrev main_call3_call0_c : Ref sig .tc := ⟨.hbm, 62, rfl⟩
abbrev main_call3_call0_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_9 : Ref sig .tc := ⟨.hbm, 67, rfl⟩
abbrev main_v30 : Ref sig .tc := ⟨.hbm, 68, rfl⟩
abbrev main_v31 : Ref sig .tc := ⟨.hbm, 69, rfl⟩
abbrev main_c_10 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst : Ref sig .tc := ⟨.hbm, 77, rfl⟩
abbrev main_v38 : Ref sig .tc := ⟨.hbm, 78, rfl⟩
abbrev main_c_11 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_13 : Ref sig .tc := ⟨.hbm, 86, rfl⟩
abbrev main_v44 : Ref sig .tc := ⟨.hbm, 87, rfl⟩
abbrev main_v45 : Ref sig .tc := ⟨.hbm, 88, rfl⟩
abbrev main_c_14 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_call4_v0 : Ref sig .tc := ⟨.hbm, 100, rfl⟩
abbrev main_call4_v1 : Ref sig .tc := ⟨.hbm, 101, rfl⟩
abbrev main_call4_cst : Ref sig .tc := ⟨.hbm, 102, rfl⟩
abbrev main_call4_v2 : Ref sig .tc := ⟨.hbm, 103, rfl⟩
abbrev main_call4_v3 : Ref sig .tc := ⟨.hbm, 104, rfl⟩
abbrev main_call4_cst_0 : Ref sig .tc := ⟨.hbm, 105, rfl⟩
abbrev main_call4_v4 : Ref sig .tc := ⟨.hbm, 106, rfl⟩
abbrev main_call4_v5 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_c_15 : Ref sig .tc := ⟨.hbm, 111, rfl⟩
abbrev main_v59 : Ref sig .tc := ⟨.hbm, 112, rfl⟩
abbrev main_v60 : Ref sig .tc := ⟨.hbm, 113, rfl⟩
abbrev main_c_16 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_c_17 : Ref sig .tc := ⟨.hbm, 118, rfl⟩
abbrev main_v64 : Ref sig .tc := ⟨.hbm, 119, rfl⟩
abbrev main_v65 : Ref sig .tc := ⟨.hbm, 120, rfl⟩
abbrev main_c_18 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_19 : Ref sig .tc := ⟨.hbm, 129, rfl⟩
abbrev main_v73 : Ref sig .tc := ⟨.hbm, 130, rfl⟩
abbrev main_c_20 : Ref sig .tc := ⟨.hbm, 131, rfl⟩
abbrev main_v74 : Ref sig .tc := ⟨.hbm, 132, rfl⟩
abbrev main_v75 : Ref sig .tc := ⟨.hbm, 133, rfl⟩
abbrev main_c_21 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩

abbrev nD : Nat := 1
abbrev τ : Topo := Topo.v7x

variable {F : FTy → Type} [FloatOps F]

class Facts₀ : Prop where
  shapeCasts_S1024x8_S8192 : S1024x8.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S64x256x1024 : S_.BroadcastsInDim S64x256x1024 (![] : Fin 0 → Fin S64x256x1024.rank)
  concatenates_S8192x1_S8192x1_S8192x2_d1 : Shape.Concatenates [S8192x1, S8192x1] S8192x2 1
  slices_S64x256x1024_S64x256x512_0_0_0 : S64x256x1024.Slices ![0, 0, 0] S64x256x512
  slices_S64x256x1024_S64x256x512_0_0_512 : S64x256x1024.Slices ![0, 0, 512] S64x256x512
  bcast_S_S64x256x512 : S_.BroadcastsInDim S64x256x512 (![] : Fin 0 → Fin S64x256x512.rank)
  bcast_S_S8192x1024 : S_.BroadcastsInDim S8192x1024 (![] : Fin 0 → Fin S8192x1024.rank)
  gather_S8192_S8192x1_S8192_n_0_n_n_0_1_1_wf : GatherDims.WF S8192 S8192x1 S8192 [] [0] [] [0] [] 1 ![1]
  gather_S1024x1024_S8192x1_S8192x1024_1_0_n_n_0_1_11024_wf : GatherDims.WF S1024x1024 S8192x1 S8192x1024 [1] [0] [] [0] [] 1 ![1, 1024]
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  scatter_S64x256x1024_S8192x2_S8192x1024_1_01_01_1_wf : ScatterDims.WF S64x256x1024 S8192x2 S8192x1024 [1] [0, 1] [0, 1] 1
  dot_S64x256x1024_S64x1024x1024_S64x256x1024_2_1_1_2_0_0_wf : DotDims.WF S64x256x1024 S64x1024x1024 S64x256x1024 [2] [1] [1] [2] [0] [0]
  dot_S64x256x512_S64x512x1024_S64x256x1024_2_1_1_2_0_0_wf : DotDims.WF S64x256x512 S64x512x1024 S64x256x1024 [2] [1] [1] [2] [0] [0]
  gather_S64x256x1024_S8192x2_S8192x1024_1_01_n_n_01_1_111024_wf : GatherDims.WF S64x256x1024 S8192x2 S8192x1024 [1] [0, 1] [] [0, 1] [] 1 ![1, 1, 1024]
  scatter_S8192x1024_S8192x1_S8192x1024_1_0_0_1_wf : ScatterDims.WF S8192x1024 S8192x1 S8192x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S1024x1024_S8192x1_S8192x1024_1_0_n_n_0_1_11024 : GatherDims S1024x1024 S8192x1 S8192x1024 where
  offsetDims := [1]
  collapsedSliceDims := [0]
  operandBatchingDims := []
  startIndicesBatchingDims := []
  startIndexMap := [0]
  indexVectorDim := 1
  sliceSizes := ![1, 1024]
  wf := gather_S1024x1024_S8192x1_S8192x1024_1_0_n_n_0_1_11024_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def scatter_S64x256x1024_S8192x2_S8192x1024_1_01_01_1 : ScatterDims S64x256x1024 S8192x2 S8192x1024 where
  updateWindowDims := [1]
  insertedWindowDims := [0, 1]
  scatterDimsToOperandDims := [0, 1]
  indexVectorDim := 1
  wf := scatter_S64x256x1024_S8192x2_S8192x1024_1_01_01_1_wf
def dot_S64x256x1024_S64x1024x1024_S64x256x1024_2_1_1_2_0_0 : DotDims S64x256x1024 S64x1024x1024 S64x256x1024 where
  lhsContracting := [2]
  rhsContracting := [1]
  lhsNonContracting := [1]
  rhsNonContracting := [2]
  lhsBatch := [0]
  rhsBatch := [0]
  wf := dot_S64x256x1024_S64x1024x1024_S64x256x1024_2_1_1_2_0_0_wf
def dot_S64x256x512_S64x512x1024_S64x256x1024_2_1_1_2_0_0 : DotDims S64x256x512 S64x512x1024 S64x256x1024 where
  lhsContracting := [2]
  rhsContracting := [1]
  lhsNonContracting := [1]
  rhsNonContracting := [2]
  lhsBatch := [0]
  rhsBatch := [0]
  wf := dot_S64x256x512_S64x512x1024_S64x256x1024_2_1_1_2_0_0_wf
def gather_S64x256x1024_S8192x2_S8192x1024_1_01_n_n_01_1_111024 : GatherDims S64x256x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S64x256x1024_S8192x2_S8192x1024_1_01_n_n_01_1_111024_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf

class Facts : Prop extends Facts₀ where

variable [Facts]
-- ==== Proof.ExpertSpec.lean ====
import Idealize.ShloMosaic.PureOps.Ideal
import Idealize.ShloMosaic.Lib.ValueIdx

/-!
  What each expert computes on its 256 dispatched rows, over the extended reals. For expert e, row c and column n of the
  first weight, the projection is the sum over k < 1024 of x(e, c, k) · w13(e, k, n). Its columns below 512 are the
  gate, those from 512 on the up half. The intermediate value at (e, c, i), i < 512, is gate · sigmoid(gate) · up, and
  the result at (e, c, h) is the sum over i < 512 of that times w2(e, i, h).
-/

open scoped BigOperators

noncomputable section

namespace Cert.Experts

open Idealize.ShloMosaic Idealize.ShloMosaic.ValueIdx

/-- Column i of the gate half, as a column of the projection. -/
def gateCol (i : Fin 512) : Fin 1024 := ⟨i.val, by omega⟩
/-- Column i of the up half, as a column of the projection. -/
def upCol (i : Fin 512) : Fin 1024 := ⟨512 + i.val, by omega⟩

/-- The first grouped product at (e, c, n). -/
def proj (x : (⟨3, ![64, 256, 1024]⟩ : Shape).Idx → EReal) (w13 : (⟨3, ![64, 1024, 1024]⟩ : Shape).Idx → EReal)
    (e : Fin 64) (c : Fin 256) (n : Fin 1024) : EReal :=
  ∑ k : Fin 1024, x (ix3 e c k) * w13 (ix3 e k n)

/-- gate · sigmoid(gate) · up at (e, c, i). -/
def inter (x : (⟨3, ![64, 256, 1024]⟩ : Shape).Idx → EReal) (w13 : (⟨3, ![64, 1024, 1024]⟩ : Shape).Idx → EReal)
    (e : Fin 64) (c : Fin 256) (i : Fin 512) : EReal :=
  proj x w13 e c (gateCol i) * Ideal.logistic (proj x w13 e c (gateCol i)) * proj x w13 e c (upCol i)

/-- The second grouped product at (e, c, h). -/
def outAt (x : (⟨3, ![64, 256, 1024]⟩ : Shape).Idx → EReal) (w13 : (⟨3, ![64, 1024, 1024]⟩ : Shape).Idx → EReal)
    (w2 : (⟨3, ![64, 512, 1024]⟩ : Shape).Idx → EReal) (e : Fin 64) (c : Fin 256) (h : Fin 1024) : EReal :=
  ∑ i : Fin 512, inter x w13 e c i * w2 (ix3 e i h)

/-- The whole result array. -/
def out (x : (⟨3, ![64, 256, 1024]⟩ : Shape).Idx → EReal) (w13 : (⟨3, ![64, 1024, 1024]⟩ : Shape).Idx → EReal)
    (w2 : (⟨3, ![64, 512, 1024]⟩ : Shape).Idx → EReal) : (⟨3, ![64, 256, 1024]⟩ : Shape).Idx → EReal :=
  fun j => outAt x w13 w2 (j 0) (j 1) (j 2)

theorem out_ix3 (x : (⟨3, ![64, 256, 1024]⟩ : Shape).Idx → EReal) (w13 : (⟨3, ![64, 1024, 1024]⟩ : Shape).Idx → EReal)
    (w2 : (⟨3, ![64, 512, 1024]⟩ : Shape).Idx → EReal) (e : Fin 64) (c : Fin 256) (h : Fin 1024) :
    out x w13 w2 (ix3 e c h) = outAt x w13 w2 e c h := rfl

end Cert.Experts

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KernelPayload.lean ====
import proofs.«122034_j37752762532030_1_alg».proof.Proof.Gen.KernelIdeal.Skeleton
import proofs.«122034_j37752762532030_1_alg».proof.Proof.ExpertSpec
import proofs.«122034_j37752762532030_1_alg».proof.Proof.LibPlainDot
import Idealize.ShloMosaic.Lib.ValueLayout
import Idealize.ShloMosaic.Lib.Pipeline.Value

/-!
  The kernel body's one stored value, read at an index of its block at the ideal values: from the three loaded blocks
  (the 256 rows of one expert, that expert's two weights, each with a leading unit axis) it is the sum over i < 512 of
  gate · sigmoid(gate) · up times the second weight, where gate and up are the two halves of the rows' product with the
  first weight. The changes of float format around the two products are the identity.
-/

open scoped BigOperators

noncomputable section

namespace Cert.KernelIdeal.Body

open Cert.KernelIdeal Cert.KernelIdeal.Gen Idealize.ShloMosaic Idealize.ShloMosaic.ValueIdx Cert.Experts

/-- The rows' product with the first weight at (c, n), from the loaded blocks. -/
def projBlk (x0 : Vec Ideal S1x256x1024 .f32) (x1 : Vec Ideal S1x1024x1024 .f32) (c : Fin 256) (n : Fin 1024) : EReal :=
  ∑ k : Fin 1024, x0 (ix3 (0 : Fin 1) c k) * x1 (ix3 (0 : Fin 1) k n)

/-- The first product of the body at (c, n). -/
theorem mm13_apply (x0 : Vec Ideal S1x256x1024 .f32) (x1 : Vec Ideal S1x1024x1024 .f32) (c : Fin 256) (n : Fin 1024) :
    matmul (F := Ideal) dot_S256x1024_S1024x1024_S256x1024_1_0_0_1_n_n none
        (truncf .bf16 (shapeCast S256x1024 x0 shapeCasts_S1x256x1024_S256x1024) bitsLt_bf16_f32)
        (truncf .bf16 (shapeCast S1024x1024 x1 shapeCasts_S1x1024x1024_S1024x1024) bitsLt_bf16_f32)
        (constant S256x1024 .f32 0x00000000#32) (ix2 c n)
      = projBlk x0 x1 c n := by
  refine (Cert.Lib.PlainDot.matmul_zero_apply dot_S256x1024_S1024x1024_S256x1024_1_0_0_1_n_n rfl rfl rfl rfl rfl rfl none _ _ c n).trans ?_
  refine Finset.sum_congr rfl fun k _ => ?_
  show shapeCast S256x1024 x0 shapeCasts_S1x256x1024_S256x1024 (ix2 c k)
      * shapeCast S1024x1024 x1 shapeCasts_S1x1024x1024_S1024x1024 (ix2 k n) = _
  rw [shapeCast_1ab_ab_apply, shapeCast_1ab_ab_apply]

/-- The body's stored value at (u, c, h). -/
theorem pay_apply (x0 : Vec Ideal S1x256x1024 .f32) (x1 : Vec Ideal S1x1024x1024 .f32) (x2 : Vec Ideal S1x512x1024 .f32)
    (u : Fin 1) (c : Fin 256) (h : Fin 1024) :
    k0_pay1 (F := Ideal) x0 x1 x2 (ix3 u c h)
      = ∑ i : Fin 512, (projBlk x0 x1 c (gateCol i) * Ideal.logistic (projBlk x0 x1 c (gateCol i)) * projBlk x0 x1 c (upCol i))
          * x2 (ix3 (0 : Fin 1) i h) := by
  unfold k0_pay1
  refine (shapeCast_ab_1ab_apply _ _ u c h).trans ?_
  refine (Cert.Lib.PlainDot.matmul_zero_apply dot_S256x512_S512x1024_S256x1024_1_0_0_1_n_n rfl rfl rfl rfl rfl rfl none _ _ c h).trans ?_
  refine Finset.sum_congr rfl fun i _ => ?_
  have hg : extractStridedSlice S256x512 ![0, 0]
        (matmul (F := Ideal) dot_S256x1024_S1024x1024_S256x1024_1_0_0_1_n_n none
          (truncf .bf16 (shapeCast S256x1024 x0 shapeCasts_S1x256x1024_S256x1024) bitsLt_bf16_f32)
          (truncf .bf16 (shapeCast S1024x1024 x1 shapeCasts_S1x1024x1024_S1024x1024) bitsLt_bf16_f32)
          (constant S256x1024 .f32 0x00000000#32)) slices_S256x1024_o0_0_S256x512 (ix2 c i) = projBlk x0 x1 c (gateCol i) :=
    (extractStridedSlice_apply _ _ _ (ix2 c i) (ix2 c (gateCol i)) (fun a => by
      match a with
      | ⟨0, _⟩ => exact (Nat.zero_add _).symm
      | ⟨1, _⟩ => exact (Nat.zero_add _).symm)).trans (mm13_apply x0 x1 c (gateCol i))
  have hu : extractStridedSlice S256x512 ![0, 512]
        (matmul (F := Ideal) dot_S256x1024_S1024x1024_S256x1024_1_0_0_1_n_n none
          (truncf .bf16 (shapeCast S256x1024 x0 shapeCasts_S1x256x1024_S256x1024) bitsLt_bf16_f32)
          (truncf .bf16 (shapeCast S1024x1024 x1 shapeCasts_S1x1024x1024_S1024x1024) bitsLt_bf16_f32)
          (constant S256x1024 .f32 0x00000000#32)) slices_S256x1024_o0_512_S256x512 (ix2 c i) = projBlk x0 x1 c (upCol i) :=
    (extractStridedSlice_apply _ _ _ (ix2 c i) (ix2 c (upCol i)) (fun a => by
      match a with
      | ⟨0, _⟩ => exact (Nat.zero_add _).symm
      | ⟨1, _⟩ => rfl)).trans (mm13_apply x0 x1 c (upCol i))
  show (_ * Ideal.logistic _ * _) * shapeCast S512x1024 x2 shapeCasts_S1x512x1024_S512x1024 (ix2 i h) = _
  rw [shapeCast_1ab_ab_apply]
  exact congrArg (· * x2 (ix3 (0 : Fin 1) i h)) (by rw [hg, hu])

end Cert.KernelIdeal.Body

end
-- ==== Proof.KernelArray.lean ====
import proofs.«122034_j37752762532030_1_alg».proof.Proof.Gen.KernelIdeal.Frame
import proofs.«122034_j37752762532030_1_alg».proof.Proof.KernelPayload

/-!
  The kernel's output array after its 64 grid points, at the ideal values. Point t reads block t of the dense buffer
  (the 256 rows of expert t) and block t of each weight, and writes back block t of the output: by the payload read at an
  index, that block is block t of the experts' result of the three arrays as the region finds them. The 64 blocks tile
  the output array, so after the run it holds that result everywhere. The windows' geometry is stated over arbitrary
  array contents first, and only then read at the contents the region finds.
-/

set_option maxRecDepth 16384

open scoped BigOperators

noncomputable section

namespace Cert.KernelIdeal.Result

open Cert.KernelIdeal Cert.KernelIdeal.Gen Cert.KernelIdeal.Body Cert.Experts
open Idealize.ShloMosaic Idealize.ShloMosaic.TcCoe Idealize.ShloMosaic.ValueIdx Idealize.SL.Sem
open Idealize.ShloMosaic.Pipeline (Dat Cfg Window)

theorem offsets_zero : (![0, 0, 0] : Fin 3 → Nat) = fun _ => 0 := funext fun a => by fin_cases a <;> rfl

/-- The expert a grid point works on. -/
def expertOf (t : Fin cfg0.N) : Fin 64 := ⟨t.val, lt_of_lt_of_eq t.isLt N_0⟩

/-- Every window's block index at point t is (t, 0, 0): decided over the grid. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## Expert e's slice of an array, as a block with a leading unit axis -/

def rowsOf (x : Vec Ideal S64x256x1024 .f32) (e : Fin 64) : Vec Ideal S1x256x1024 .f32 :=
  fun j => x (ix3 e (j 1 : Fin 256) (j 2 : Fin 1024))
def w13Of (w : Vec Ideal S64x1024x1024 .f32) (e : Fin 64) : Vec Ideal S1x1024x1024 .f32 :=
  fun j => w (ix3 e (j 1 : Fin 1024) (j 2 : Fin 1024))
def w2Of (w : Vec Ideal S64x512x1024 .f32) (e : Fin 64) : Vec Ideal S1x512x1024 .f32 :=
  fun j => w (ix3 e (j 1 : Fin 512) (j 2 : Fin 1024))
def outOf (g : Vec Ideal S64x256x1024 .f32) (e : Fin 64) : Vec Ideal S1x256x1024 .f32 :=
  fun j => g (ix3 e (j 1 : Fin 256) (j 2 : Fin 1024))

/-! ## The windows' geometry, over any array contents -/

/-- Block t of window 0 of an array is expert t's rows of it. -/
theorem rows_geom (t : Fin cfg0.N) (X : Vec Ideal S64x256x1024 .f32) :
    (((cfg0.win 0).blk t).view.read (Elt Ideal) X : Vec Ideal S1x256x1024 .f32) = rowsOf X (expertOf t) := by
  obtain ⟨e0, e1, e2, -⟩ := index_facts t
  funext j
  rw [View.read_apply]
  show X _ = X _
  refine congrArg X ?_
  funext a; apply Fin.ext
  have hj0 : (j 0).val < 1 := (j 0).isLt
  match a with
  | ⟨0, _⟩ => show win0_0.index t (0 : Fin 3) * 1 + 1 * (j 0).val = t.val; omega
  | ⟨1, _⟩ => show win0_0.index t (1 : Fin 3) * 256 + 1 * (j 1).val = (j 1).val; omega
  | ⟨2, _⟩ => show win0_0.index t (2 : Fin 3) * 1024 + 1 * (j 2).val = (j 2).val; omega

/-- Block t of window 1 of an array is expert t's first weight. -/
theorem w13_geom (t : Fin cfg0.N) (X : Vec Ideal S64x1024x1024 .f32) :
    (((cfg0.win 1).blk t).view.read (Elt Ideal) X : Vec Ideal S1x1024x1024 .f32) = w13Of X (expertOf t) := by
  obtain ⟨-, -, -, e0, e1, e2, -⟩ := index_facts t
  funext j
  rw [View.read_apply]
  show X _ = X _
  refine congrArg X ?_
  funext a; apply Fin.ext
  have hj0 : (j 0).val < 1 := (j 0).isLt
  match a with
  | ⟨0, _⟩ => show win0_1.index t (0 : Fin 3) * 1 + 1 * (j 0).val = t.val; omega
  | ⟨1, _⟩ => show win0_1.index t (1 : Fin 3) * 1024 + 1 * (j 1).val = (j 1).val; omega
  | ⟨2, _⟩ => show win0_1.index t (2 : Fin 3) * 1024 + 1 * (j 2).val = (j 2).val; omega

/-- Block t of window 2 of an array is expert t's second weight. -/
theorem w2_geom (t : Fin cfg0.N) (X : Vec Ideal S64x512x1024 .f32) :
    (((cfg0.win 2).blk t).view.read (Elt Ideal) X : Vec Ideal S1x512x1024 .f32) = w2Of X (expertOf t) := by
  obtain ⟨-, -, -, -, -, -, e0, e1, e2, -⟩ := index_facts t
  funext j
  rw [View.read_apply]
  show X _ = X _
  refine congrArg X ?_
  funext a; apply Fin.ext
  have hj0 : (j 0).val < 1 := (j 0).isLt
  match a with
  | ⟨0, _⟩ => show win0_2.index t (0 : Fin 3) * 1 + 1 * (j 0).val = t.val; omega
  | ⟨1, _⟩ => show win0_2.index t (1 : Fin 3) * 512 + 1 * (j 1).val = (j 1).val; omega
  | ⟨2, _⟩ => show win0_2.index t (2 : Fin 3) * 1024 + 1 * (j 2).val = (j 2).val; omega

/-- Block t of the output window of an array is expert t's slice of it. -/
theorem out_geom (t : Fin cfg0.N) (G : Vec Ideal S64x256x1024 .f32) :
    (((cfg0.win 3).blk t).view.read (Elt Ideal) G : Vec Ideal S1x256x1024 .f32) = outOf G (expertOf t) := by
  obtain ⟨-, -, -, -, -, -, -, -, -, e0, e1, e2⟩ := index_facts t
  funext j
  rw [View.read_apply]
  show G _ = G _
  refine congrArg G ?_
  funext a; apply Fin.ext
  have hj0 : (j 0).val < 1 := (j 0).isLt
  match a with
  | ⟨0, _⟩ => show win0_3.index t (0 : Fin 3) * 1 + 1 * (j 0).val = t.val; omega
  | ⟨1, _⟩ => show win0_3.index t (1 : Fin 3) * 256 + 1 * (j 1).val = (j 1).val; omega
  | ⟨2, _⟩ => show win0_3.index t (2 : Fin 3) * 1024 + 1 * (j 2).val = (j 2).val; omega

/-! ## One point, over any array contents -/

/-- Blocks that are expert e's slices of three arrays give, at a block index, the experts' result of the arrays at the
    array index with the same row and column in expert e. -/
theorem point_value (x : Vec Ideal S64x256x1024 .f32) (w13 : Vec Ideal S64x1024x1024 .f32) (w2 : Vec Ideal S64x512x1024 .f32)
    (x0 : Vec Ideal S1x256x1024 .f32) (x1 : Vec Ideal S1x1024x1024 .f32) (x2 : Vec Ideal S1x512x1024 .f32) (e : Fin 64)
    (h0 : ∀ (r : Fin 256) (k : Fin 1024), x0 (ix3 (0 : Fin 1) r k) = x (ix3 e r k))
    (h1 : ∀ (k : Fin 1024) (n : Fin 1024), x1 (ix3 (0 : Fin 1) k n) = w13 (ix3 e k n))
    (h2 : ∀ (i : Fin 512) (h : Fin 1024), x2 (ix3 (0 : Fin 1) i h) = w2 (ix3 e i h))
    (u : Fin 1) (r : Fin 256) (h : Fin 1024) :
    k0_pay1 (F := Ideal) x0 x1 x2 (ix3 u r h) = Cert.Experts.out x w13 w2 (ix3 e r h) := by
  rw [pay_apply, out_ix3]
  unfold outAt inter proj projBlk
  simp only [h0, h1, h2]

/-- What the body leaves in the output's staging buffer, from expert e's slices, is expert e's slice of the experts'
    result. -/
theorem out_blocks (x : Vec Ideal S64x256x1024 .f32) (w13 : Vec Ideal S64x1024x1024 .f32) (w2 : Vec Ideal S64x512x1024 .f32) (e : Fin 64) :
    out0_3 (F := Ideal) (rowsOf x e) (w13Of w13 e) (w2Of w2 e) = outOf (Cert.Experts.out x w13 w2) e := by
  unfold out0_3
  rw [View.canon_unit_zero offsets_zero]
  simp only [View.ld_unit_zero (S := S1x256x1024) offsets_zero, View.ld_unit_zero (S := S1x1024x1024) offsets_zero,
    View.ld_unit_zero (S := S1x512x1024) offsets_zero]
  funext j
  obtain ⟨u, r, h, rfl⟩ : ∃ (u : Fin 1) (r : Fin 256) (h : Fin 1024), j = ix3 u r h := ⟨j 0, j 1, j 2, eq_ix3 j⟩
  exact point_value x w13 w2 (rowsOf x e) (w13Of w13 e) (w2Of w2 e) e (fun _ _ => rfl) (fun _ _ => rfl) (fun _ _ => rfl) u r h

/-- What point t writes back, over any array contents: block t of the experts' result. -/
theorem flushed_geom (t : Fin cfg0.N) (X : Vec Ideal S64x256x1024 .f32) (W13 : Vec Ideal S64x1024x1024 .f32) (W2 : Vec Ideal S64x512x1024 .f32) :
    (cfg0.win 3).cut (grid0.coords t) (out0_3 (F := Ideal) (rowsOf X (expertOf t)) (w13Of W13 (expertOf t)) (w2Of W2 (expertOf t)))
      = ((cfg0.win 3).blk t).view.read (Elt Ideal) (Cert.Experts.out X W13 W2) := by
  rw [out_blocks, out_geom]
  rfl

/-! ## At the contents the region finds -/

variable (m : (ℓ : Loc nD τ sig) → Buf (Elt Ideal) ℓ)

theorem rows_block (c : Dev nD) (t : Fin cfg0.N) :
    (iblk m c 0 t : Vec Ideal S1x256x1024 .f32) = rowsOf (V m c main_v52) (expertOf t) := by
  unfold iblk
  exact rows_geom t (V m c (Pipeline.arrRef spec0 0))

theorem w13_block (c : Dev nD) (t : Fin cfg0.N) :
    (iblk m c 1 t : Vec Ideal S1x1024x1024 .f32) = w13Of (V m c main_arg3) (expertOf t) := by
  unfold iblk
  exact w13_geom t (V m c (Pipeline.arrRef spec0 1))

theorem w2_block (c : Dev nD) (t : Fin cfg0.N) :
    (iblk m c 2 t : Vec Ideal S1x512x1024 .f32) = w2Of (V m c main_arg4) (expertOf t) := by
  unfold iblk
  exact w2_geom t (V m c (Pipeline.arrRef spec0 2))

/-- What point t writes back is block t of the experts' result of the arrays as the region finds them. -/
theorem flushed_eq (c : Dev nD) (t : Fin cfg0.N) :
    (dats m 0 c).flushed 3 t
      = ((cfg0.win 3).blk t).view.read (Elt Ideal)
          (Cert.Experts.out (V m c main_v52 : Vec Ideal S64x256x1024 .f32) (V m c main_arg3 : Vec Ideal S64x1024x1024 .f32) (V m c main_arg4 : Vec Ideal S64x512x1024 .f32)) := by
  show (cfg0.win 3).cut (grid0.coords t) ((dats m 0 c).after 3 t) = _
  rw [after0_3, rows_block, w13_block, w2_block]
  exact flushed_geom t _ _ _

/-- An index of the output array is in point t's block iff each coordinate is in the block's range on its axis. -/
theorem mem_blk (t : Fin cfg0.N) (i : S64x256x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v53).slice (win0_3.rect t)).set ↔ _
  rw [View.set_slice_whole, Rect.mem_set_unit]
  exact Iff.rfl

/-- Every index of the output array is in the block of the point of its expert. -/
theorem cover (i : S64x256x1024.Idx) : ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1024 := (i 2).isLt
  let t : Fin cfg0.N := ⟨(i 0).val, lt_of_lt_of_eq hi0 N_0.symm⟩
  refine ⟨t, flush0_3 t, ?_⟩
  obtain ⟨-, -, -, -, -, -, -, -, -, e0, e1, e2⟩ := index_facts t
  have ht : t.val = (i 0).val := rfl
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- The output array after the run is the experts' result of the dense buffer and the two weights as the region finds them. -/
theorem out_array (c : Dev nD) :
    (dats m 0 c).arrAt 3 cfg0.N
      = Cert.Experts.out (V m c main_v52 : Vec Ideal S64x256x1024 .f32) (V m c main_arg3 : Vec Ideal S64x1024x1024 .f32) (V m c main_arg4 : Vec Ideal S64x512x1024 .f32) :=
  (dats m 0 c).arrAt_eq_of_cover 3 _ (fun t _ => flushed_eq m c t) cover

end Cert.KernelIdeal.Result

end
-- ==== Proof.KernelRun.lean ====
import proofs.«122034_j37752762532030_1_alg».proof.Proof.Gen.KernelIdeal.Frame
import proofs.«122034_j37752762532030_1_alg».proof.Proof.KernelArray

/-!
  The kernel program's run, read at its results. After the region the core's buffers are those the region found, with
  the pipeline's four arrays at what the 64 points left: the output array at the experts' result, the three inputs
  unchanged. The combine then runs from these contents. So the program ends with the expanded output at the combine of
  those contents, the sort permutation as the dispatch left it, and every argument as launched.
-/

noncomputable section

namespace Cert.KernelIdeal.Result

open Cert.KernelIdeal Cert.KernelIdeal.Gen Cert.Experts
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The core's contents when the combine starts: what the region found, the pipeline's arrays at what the points left. -/
abbrev afterRegion (c : Dev nD) : Valuation τ sig (Elt Ideal) :=
  Pipeline.withArrays spec0 c (V0 m c) fun w => (dats m 0 c).arrAt w cfg0.N

/-- There the output array holds the experts' result of the dense buffer and the weights. -/
theorem afterRegion_out (c : Dev nD) :
    afterRegion m c (Proc.devRef .tc main_v53)
      = Cert.Experts.out (V m c main_v52 : Vec Ideal S64x256x1024 .f32) (V m c main_arg3 : Vec Ideal S64x1024x1024 .f32) (V m c main_arg4 : Vec Ideal S64x512x1024 .f32) :=
  (Pipeline.withArrays_arr spec0 launch0.win.arr_inj c _ _ 3).trans (out_array m c)

/-- The expert id per sorted row is as the dispatch left it, -/
theorem afterRegion_seg (c : Dev nD) : afterRegion m c (Proc.devRef .tc main_v8) = V0 m c (Proc.devRef .tc main_v8) :=
  Pipeline.withArrays_of_ne _ c (V0 m c) _ main_v8 (by exact (by decide : ∀ w, Pipeline.arrRef spec0 w ≠ main_v8))
/-- so is the slot per sorted row, -/
theorem afterRegion_slot (c : Dev nD) : afterRegion m c (Proc.devRef .tc main_v37) = V0 m c (Proc.devRef .tc main_v37) :=
  Pipeline.withArrays_of_ne _ c (V0 m c) _ main_v37 (by exact (by decide : ∀ w, Pipeline.arrRef spec0 w ≠ main_v37))
/-- and the sort permutation. -/
theorem afterRegion_sortIdx (c : Dev nD) : afterRegion m c (Proc.devRef .tc main_v1) = V0 m c (Proc.devRef .tc main_v1) :=
  Pipeline.withArrays_of_ne _ c (V0 m c) _ main_v1 (by exact (by decide : ∀ w, Pipeline.arrRef spec0 w ≠ main_v1))

/-- The combine does not write the sort permutation. -/
theorem combine_keeps_sortIdx (W : Valuation τ sig (Elt Ideal)) :
    StableHlo.after (hostOps1 (F := Ideal)) W (Proc.devRef .tc main_v1) = W (Proc.devRef .tc main_v1) := by
  simp only [hostOps1]
  after_results_simp

/-- Every weakly fair execution of the kernel program terminates with the expanded output at the combine of the contents
    after the region, the sort permutation as the dispatch left it, and the arguments as launched. -/
theorem run : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v75) = StableHlo.after (hostOps1 (F := Ideal)) (afterRegion m c) (Proc.devRef .tc main_v75)
      ∧ r.2.mem ((c.tc : Thread nD τ).loc main_arg1) = m ((c.tc : Thread nD τ).loc main_arg1)
      ∧ r.2.mem ((c.tc : Thread nD τ).loc main_v1) = V0 m c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    have a0 := ((h c).2 main_arg0 (Pipeline.mem_restRefs_of main_arg0 (by decide) (by decide))).trans (W_main_arg0 m (dats m) c)
    have a1 := ((h c).2 main_arg1 (Pipeline.mem_restRefs_of main_arg1 (by decide) (by decide))).trans (W_main_arg1 m (dats m) c)
    have a2 := ((h c).2 main_arg2 (Pipeline.mem_restRefs_of main_arg2 (by decide) (by decide))).trans (W_main_arg2 m (dats m) c)
    have a3 := ((h c).1 1).trans (((dats m 0 c).arrAt_in 1 rfl _).trans ((A_eq m c 1).trans (V_main_arg3 m c)))
    have a4 := ((h c).1 2).trans (((dats m 0 c).arrAt_in 2 rfl _).trans ((A_eq m c 2).trans (V_main_arg4 m c)))
    ⟨a0,
      (h c).2 main_v75 (Pipeline.mem_restRefs_of main_v75 (by decide) (by decide)),
      a1,
      (((h c).2 main_v1 (Pipeline.mem_restRefs_of main_v1 (by decide) (by decide))).trans
        ((combine_keeps_sortIdx (afterRegion m c)).trans (afterRegion_sortIdx m c))),
      a0, a1, a2, a3, a4⟩)
    (run_main m ρ)

end Cert.KernelIdeal.Result

end
-- ==== Proof.ReferenceLine.lean ====
import proofs.«122034_j37752762532030_1_alg».proof.Proof.Gen.ReferenceIdeal
import Idealize.ShloMosaic.Lib.StableHlo.Run
import Idealize.ShloMosaic.Lib.Pipeline.Regions
import Idealize.ShloMosaic.Lib.Pipeline.Frame

/-!
  The reference program is a straight line of host operations: the dispatch (sort the expanded rows by expert, count the
  rows of each expert, give each row its slot, scatter the rows into a dense buffer of 64 experts × 256 slots), the two
  grouped products with x · sigmoid x · up between them, and the combine (gather the result rows back and undo the sort).
  Here the line is cut into fourteen lists, one per stretch between two calls of an outlined function, the program is
  shown to be their concatenation run in order, and the run is read back: every weakly fair execution terminates with
  each buffer at the fold of the operations over the launch contents, taken in three steps (dispatch, products, combine).
-/

noncomputable section

namespace Cert.ReferenceIdeal.Host

open Cert.ReferenceIdeal Cert.ReferenceIdeal.Gen Idealize.ShloMosaic Idealize.ShloMosaic.TcCoe Idealize.SL.Sem

variable {F : FTy → Type} [FloatOps F]

/-- The expert ids flattened to one row-major list. -/
abbrev opsFlat : List (HloOp τ sig (Elt F)) :=
  [ StableHlo.reshape main_arg2 main_v0 rfl shapeCasts_S1024x8_S8192 ]
theorem opsFlat_sub : (opsFlat : List (HloOp τ sig (Elt F))).Forall fun op => op.bufs ⊆ StableHlo.tcRefs τ sig :=
  StableHlo.reshape_bufs_sub ..
theorem opsFlat_fresh : (opsFlat : List (HloOp τ sig (Elt F))).Forall fun op => op.fresh = ∅ := by
  simp only [List.Forall]; repeat' constructor

/-- The stable argsort of the flat ids: the sorted keys and the permutation. -/
abbrev opsArgsort : List (HloOp τ sig (Elt F)) :=
  [ StableHlo.TRef.nullary (.of main_call0_v0 : StableHlo.TRef sig ⟨S8192, .i32⟩) (iotaInDim S8192 32 0),
    StableHlo.TRef.binary (.of main_v0 : StableHlo.TRef sig ⟨S8192, .i32⟩) (.of main_call0_v0 : StableHlo.TRef sig ⟨S8192, .i32⟩) (.of main_call0_v1_0 : StableHlo.TRef sig ⟨S8192, .i32⟩) (fun x y => (Host.sort2 S8192 0 comparator_i32_i32_d0 x y).1),
    StableHlo.TRef.binary (.of main_v0 : StableHlo.TRef sig ⟨S8192, .i32⟩) (.of main_call0_v0 : StableHlo.TRef sig ⟨S8192, .i32⟩) (.of main_v1 : StableHlo.TRef sig ⟨S8192, .i32⟩) (fun x y => (Host.sort2 S8192 0 comparator_i32_i32_d0 x y).2) ]
theorem opsArgsort_sub : (opsArgsort : List (HloOp τ sig (Elt F))).Forall fun op => op.bufs ⊆ StableHlo.tcRefs τ sig :=
  ⟨StableHlo.nullary_bufs_sub .., StableHlo.binary_bufs_sub .., StableHlo.binary_bufs_sub ..⟩
theorem opsArgsort_fresh : (opsArgsort : List (HloOp τ sig (Elt F))).Forall fun op => op.fresh = ∅ := by
  simp only [List.Forall]; repeat' constructor

/-- The expert id of each sorted row (the flat ids gathered through the permutation, a negative index wrapped). -/
abbrev opsSeg : List (HloOp τ sig (Elt F)) :=
  [ StableHlo.nullary main_c (constantI S_ 32 0#32),
    StableHlo.unary main_c main_v2 (broadcastInDim S8192 ![] bcast_S_S8192 : (⟨S_, .i32⟩ : BufTy).Contents (Elt F) → (⟨S8192, .i32⟩ : BufTy).Contents (Elt F)),
    StableHlo.binary main_v1 main_v2 main_v3 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 8192#32),
    StableHlo.unary main_c_0 main_v4 (broadcastInDim S8192 ![] bcast_S_S8192 : (⟨S_, .i32⟩ : BufTy).Contents (Elt F) → (⟨S8192, .i32⟩ : BufTy).Contents (Elt F)),
    StableHlo.binary main_v1 main_v4 main_v5 (addi : (⟨S8192, .i32⟩ : BufTy).Contents (Elt F) → (⟨S8192, .i32⟩ : BufTy).Contents (Elt F) → (⟨S8192, .i32⟩ : BufTy).Contents (Elt F)),
    StableHlo.ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v6 main_v7 (broadcastInDim S8192x1 ![0] bcast_S8192_S8192x1_0 : (⟨S8192, .i32⟩ : BufTy).Contents (Elt F) → (⟨S8192x1, .i32⟩ : BufTy).Contents (Elt F)),
    StableHlo.binary main_v0 main_v7 main_v8 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_1 (constantI S_ 32 8#32) ]
theorem opsSeg_sub : (opsSeg : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem opsSeg_fresh : (opsSeg : List (HloOp τ sig (Elt F))).Forall fun op => op.fresh = ∅ := by
  simp only [List.Forall]; repeat' constructor

/-- The token of each sorted row: the permutation floor-divided by the number of choices per token. -/
abbrev opsTokenOf : List (HloOp τ sig (Elt F)) :=
  [ StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S8192, .i32⟩) (broadcastInDim S8192 ![] bcast_S_S8192),
    StableHlo.TRef.binary (.of main_v1 : StableHlo.TRef sig ⟨S8192, .i32⟩) (.of main_call1_v1 : StableHlo.TRef sig ⟨S8192, .i32⟩) (.of main_call1_v2 : StableHlo.TRef sig ⟨S8192, .i32⟩) Host.divsi,
    StableHlo.TRef.unary (.of main_v1 : StableHlo.TRef sig ⟨S8192, .i32⟩) (.of main_call1_v3 : StableHlo.TRef sig ⟨S8192, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S8192, .i32⟩) (broadcastInDim S8192 ![] bcast_S_S8192),
    StableHlo.TRef.binary (.of main_call1_v3 : StableHlo.TRef sig ⟨S8192, .i32⟩) (.of main_call1_v5 : StableHlo.TRef sig ⟨S8192, .i32⟩) (.of main_call1_v6 : StableHlo.TRef sig ⟨S8192, .i1⟩) (cmpi .ne),
    StableHlo.TRef.unary (.of main_call1_v0 : StableHlo.TRef sig ⟨S_, .i32⟩) (.of main_call1_v7 : StableHlo.TRef sig ⟨S8192, .i32⟩) (broadcastInDim S8192 ![] bcast_S_S8192),
    StableHlo.TRef.binary (.of main_v1 : StableHlo.TRef sig ⟨S8192, .i32⟩) (.of main_call1_v7 : StableHlo.TRef sig ⟨S8192, .i32⟩) (.of main_call1_v8 : StableHlo.TRef sig ⟨S8192, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S8192, .i32⟩) (broadcastInDim S8192 ![] bcast_S_S8192),
    StableHlo.TRef.binary (.of main_call1_v8 : StableHlo.TRef sig ⟨S8192, .i32⟩) (.of main_call1_v9 : StableHlo.TRef sig ⟨S8192, .i32⟩) (.of main_call1_v10 : StableHlo.TRef sig ⟨S8192, .i1⟩) (cmpi .ne),
    StableHlo.TRef.binary (.of main_call1_v6 : StableHlo.TRef sig ⟨S8192, .i1⟩) (.of main_call1_v10 : StableHlo.TRef sig ⟨S8192, .i1⟩) (.of main_call1_v11 : StableHlo.TRef sig ⟨S8192, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S8192, .i32⟩) (broadcastInDim S8192 ![] bcast_S_S8192),
    StableHlo.TRef.binary (.of main_call1_v2 : StableHlo.TRef sig ⟨S8192, .i32⟩) (.of main_call1_v12 : StableHlo.TRef sig ⟨S8192, .i32⟩) (.of main_call1_v13 : StableHlo.TRef sig ⟨S8192, .i32⟩) subi,
    StableHlo.TRef.ternary (.of main_call1_v11 : StableHlo.TRef sig ⟨S8192, .i1⟩) (.of main_call1_v13 : StableHlo.TRef sig ⟨S8192, .i32⟩) (.of main_call1_v2 : StableHlo.TRef sig ⟨S8192, .i32⟩) (.of main_v9 : StableHlo.TRef sig ⟨S8192, .i32⟩) select ]
theorem opsTokenOf_sub : (opsTokenOf : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem opsTokenOf_fresh : (opsTokenOf : List (HloOp τ sig (Elt F))).Forall fun op => op.fresh = ∅ := by
  simp only [List.Forall]; repeat' constructor

/-- The hidden rows gathered in sorted order, and the zero counts. -/
abbrev opsRows : List (HloOp τ sig (Elt F)) :=
  [ StableHlo.nullary main_c_2 (constantI S_ 32 0#32),
    StableHlo.unary main_c_2 main_v10 (broadcastInDim S8192 ![] bcast_S_S8192 : (⟨S_, .i32⟩ : BufTy).Contents (Elt F) → (⟨S8192, .i32⟩ : BufTy).Contents (Elt F)),
    StableHlo.binary main_v9 main_v10 main_v11 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 1024#32),
    StableHlo.unary main_c_3 main_v12 (broadcastInDim S8192 ![] bcast_S_S8192 : (⟨S_, .i32⟩ : BufTy).Contents (Elt F) → (⟨S8192, .i32⟩ : BufTy).Contents (Elt F)),
    StableHlo.binary main_v9 main_v12 main_v13 (addi : (⟨S8192, .i32⟩ : BufTy).Contents (Elt F) → (⟨S8192, .i32⟩ : BufTy).Contents (Elt F) → (⟨S8192, .i32⟩ : BufTy).Contents (Elt F)),
    StableHlo.ternary main_v11 main_v13 main_v9 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v14 main_v15 (broadcastInDim S8192x1 ![0] bcast_S8192_S8192x1_0 : (⟨S8192, .i32⟩ : BufTy).Contents (Elt F) → (⟨S8192x1, .i32⟩ : BufTy).Contents (Elt F)),
    StableHlo.binary main_arg0 main_v15 main_v16 ((fun x i => Host.gather gather_S1024x1024_S8192x1_S8192x1024_1_0_n_n_0_1_11024 x i) : (⟨S1024x1024, .f32⟩ : BufTy).Contents (Elt F) → (⟨S8192x1, .i32⟩ : BufTy).Contents (Elt F) → (⟨S8192x1024, .f32⟩ : BufTy).Contents (Elt F)),
    StableHlo.nullary main_c_4 (constantI S_ 32 0#32),
    StableHlo.unary main_c_4 main_v17 (broadcastInDim S64 ![] bcast_S_S64 : (⟨S_, .i32⟩ : BufTy).Contents (Elt F) → (⟨S64, .i32⟩ : BufTy).Contents (Elt F)),
    StableHlo.nullary main_c_5 (constantI S_ 32 0#32) ]
theorem opsRows_sub : (opsRows : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub ..⟩
theorem opsRows_fresh : (opsRows : List (HloOp τ sig (Elt F))).Forall fun op => op.fresh = ∅ := by
  simp only [List.Forall]; repeat' constructor

/-- The flat ids clipped below at zero. -/
abbrev opsClip : List (HloOp τ sig (Elt F)) :=
  [ StableHlo.TRef.unary (.of main_c_5 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S8192, .i32⟩) (broadcastInDim S8192 ![] bcast_S_S8192),
    StableHlo.TRef.binary (.of main_call2_v1 : StableHlo.TRef sig ⟨S8192, .i32⟩) (.of main_v0 : StableHlo.TRef sig ⟨S8192, .i32⟩) (.of main_v18 : StableHlo.TRef sig ⟨S8192, .i32⟩) maxsi ]
theorem opsClip_sub : (opsClip : List (HloOp τ sig (Elt F))).Forall fun op => op.bufs ⊆ StableHlo.tcRefs τ sig :=
  ⟨StableHlo.unary_bufs_sub .., StableHlo.unary_bufs_sub .., StableHlo.binary_bufs_sub ..⟩
theorem opsClip_fresh : (opsClip : List (HloOp τ sig (Elt F))).Forall fun op => op.fresh = ∅ := by
  simp only [List.Forall]; repeat' constructor

/-- The number of rows per expert: ones scatter-added at the clipped ids. -/
abbrev opsCounts : List (HloOp τ sig (Elt F)) :=
  [ StableHlo.nullary main_c_6 (constantI S_ 32 0#32),
    StableHlo.unary main_c_6 main_v19 (broadcastInDim S8192 ![] bcast_S_S8192 : (⟨S_, .i32⟩ : BufTy).Contents (Elt F) → (⟨S8192, .i32⟩ : BufTy).Contents (Elt F)),
    StableHlo.binary main_v18 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_7 (constantI S_ 32 64#32),
    StableHlo.unary main_c_7 main_v21 (broadcastInDim S8192 ![] bcast_S_S8192 : (⟨S_, .i32⟩ : BufTy).Contents (Elt F) → (⟨S8192, .i32⟩ : BufTy).Contents (Elt F)),
    StableHlo.binary main_v18 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v18 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v24 (broadcastInDim S8192x1 ![0] bcast_S8192_S8192x1_0 : (⟨S8192, .i32⟩ : BufTy).Contents (Elt F) → (⟨S8192x1, .i32⟩ : BufTy).Contents (Elt F)),
    StableHlo.nullary main_c_8 (constantI S_ 32 1#32),
    StableHlo.unary main_c_8 main_v25 (broadcastInDim S8192 ![] bcast_S_S8192 : (⟨S_, .i32⟩ : BufTy).Contents (Elt F) → (⟨S8192, .i32⟩ : BufTy).Contents (Elt F)),
    StableHlo.ternary main_v17 main_v24 main_v25 main_v26 ((fun x i u => Host.scatter scatter_S64_S8192x1_S8192_n_0_0_1 IntOp.addi x i u) : (⟨S64, .i32⟩ : BufTy).Contents (Elt F) → (⟨S8192x1, .i32⟩ : BufTy).Contents (Elt F) → (⟨S8192, .i32⟩ : BufTy).Contents (Elt F) → (⟨S64, .i32⟩ : BufTy).Contents (Elt F)) ]
theorem opsCounts_sub : (opsCounts : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
theorem opsCounts_fresh : (opsCounts : List (HloOp τ sig (Elt F))).Forall fun op => op.fresh = ∅ := by
  simp only [List.Forall]; repeat' constructor

/-- The inclusive prefix sums of the counts. -/
abbrev opsCumsum : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v26 : StableHlo.TRef sig ⟨S64, .i32⟩) (.of main_call3_call0_v0 : StableHlo.TRef sig ⟨S_, .i32⟩) (.of main_v27 : StableHlo.TRef sig ⟨S64, .i32⟩) (fun x v => Host.reduceWindow IntOp.addi ![64] ![1] ![63] ![0] x v reduceWindows_S64_S64_w64s1p63_0 h_S_) ]
theorem opsCumsum_sub : (opsCumsum : List (HloOp τ sig (Elt F))).Forall fun op => op.bufs ⊆ StableHlo.tcRefs τ sig :=
  ⟨StableHlo.nullary_bufs_sub .., StableHlo.unary_bufs_sub .., StableHlo.binary_bufs_sub ..⟩
theorem opsCumsum_fresh : (opsCumsum : List (HloOp τ sig (Elt F))).Forall fun op => op.fresh = ∅ := by
  simp only [List.Forall]; repeat' constructor

/-- Each expert's first row, the slot of each sorted row within its expert, the zero dispatch buffer, the expert index wrapped. -/
abbrev opsSlot : List (HloOp τ sig (Elt F)) :=
  [ StableHlo.binary main_v27 main_v26 main_v28 (subi : (⟨S64, .i32⟩ : BufTy).Contents (Elt F) → (⟨S64, .i32⟩ : BufTy).Contents (Elt F) → (⟨S64, .i32⟩ : BufTy).Contents (Elt F)),
    StableHlo.nullary main_v29 (iotaInDim S8192 32 0),
    StableHlo.nullary main_c_9 (constantI S_ 32 0#32),
    StableHlo.unary main_c_9 main_v30 (broadcastInDim S8192 ![] bcast_S_S8192 : (⟨S_, .i32⟩ : BufTy).Contents (Elt F) → (⟨S8192, .i32⟩ : BufTy).Contents (Elt F)),
    StableHlo.binary main_v8 main_v30 main_v31 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 64#32),
    StableHlo.unary main_c_10 main_v32 (broadcastInDim S8192 ![] bcast_S_S8192 : (⟨S_, .i32⟩ : BufTy).Contents (Elt F) → (⟨S8192, .i32⟩ : BufTy).Contents (Elt F)),
    StableHlo.binary main_v8 main_v32 main_v33 (addi : (⟨S8192, .i32⟩ : BufTy).Contents (Elt F) → (⟨S8192, .i32⟩ : BufTy).Contents (Elt F) → (⟨S8192, .i32⟩ : BufTy).Contents (Elt F)),
    StableHlo.ternary main_v31 main_v33 main_v8 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v34 main_v35 (broadcastInDim S8192x1 ![0] bcast_S8192_S8192x1_0 : (⟨S8192, .i32⟩ : BufTy).Contents (Elt F) → (⟨S8192x1, .i32⟩ : BufTy).Contents (Elt F)),
    StableHlo.binary main_v28 main_v35 main_v36 ((fun x i => Host.gather gather_S64_S8192x1_S8192_n_0_n_n_0_1_1 x i) : (⟨S64, .i32⟩ : BufTy).Contents (Elt F) → (⟨S8192x1, .i32⟩ : BufTy).Contents (Elt F) → (⟨S8192, .i32⟩ : BufTy).Contents (Elt F)),
    StableHlo.binary main_v29 main_v36 main_v37 (subi : (⟨S8192, .i32⟩ : BufTy).Contents (Elt F) → (⟨S8192, .i32⟩ : BufTy).Contents (Elt F) → (⟨S8192, .i32⟩ : BufTy).Contents (Elt F)),
    StableHlo.nullary main_cst (constant S_ .f32 0x00000000#32),
    StableHlo.unary main_cst main_v38 (broadcastInDim S64x256x1024 ![] bcast_S_S64x256x1024 : (⟨S_, .f32⟩ : BufTy).Contents (Elt F) → (⟨S64x256x1024, .f32⟩ : BufTy).Contents (Elt F)),
    StableHlo.nullary main_c_11 (constantI S_ 32 0#32),
    StableHlo.unary main_c_11 main_v39 (broadcastInDim S8192 ![] bcast_S_S8192 : (⟨S_, .i32⟩ : BufTy).Contents (Elt F) → (⟨S8192, .i32⟩ : BufTy).Contents (Elt F)),
    StableHlo.binary main_v8 main_v39 main_v40 (cmpi .slt : (⟨S8192, .i32⟩ : BufTy).Contents (Elt F) → (⟨S8192, .i32⟩ : BufTy).Contents (Elt F) → (⟨S8192, .i1⟩ : BufTy).Contents (Elt F)),
    StableHlo.nullary main_c_12 (constantI S_ 32 64#32),
    StableHlo.unary main_c_12 main_v41 (broadcastInDim S8192 ![] bcast_S_S8192 : (⟨S_, .i32⟩ : BufTy).Contents (Elt F) → (⟨S8192, .i32⟩ : BufTy).Contents (Elt F)),
    StableHlo.binary main_v8 main_v41 main_v42 (addi : (⟨S8192, .i32⟩ : BufTy).Contents (Elt F) → (⟨S8192, .i32⟩ : BufTy).Contents (Elt F) → (⟨S8192, .i32⟩ : BufTy).Contents (Elt F)),
    StableHlo.ternary main_v40 main_v42 main_v8 main_v43 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_13 (constantI S_ 32 0#32) ]
theorem opsSlot_sub : (opsSlot : List (HloOp τ sig (Elt F))).Forall fun op => op.bufs ⊆ StableHlo.tcRefs τ sig :=
  ⟨StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub ..⟩
theorem opsSlot_fresh : (opsSlot : List (HloOp τ sig (Elt F))).Forall fun op => op.fresh = ∅ := by
  simp only [List.Forall]; repeat' constructor

/-- The slot index wrapped, the (expert, slot) pairs, and the rows scattered into the dense per-expert buffer. -/
abbrev opsDispatch : List (HloOp τ sig (Elt F)) :=
  [ StableHlo.unary main_c_13 main_v44 (broadcastInDim S8192 ![] bcast_S_S8192 : (⟨S_, .i32⟩ : BufTy).Contents (Elt F) → (⟨S8192, .i32⟩ : BufTy).Contents (Elt F)),
    StableHlo.binary main_v37 main_v44 main_v45 (cmpi .slt : (⟨S8192, .i32⟩ : BufTy).Contents (Elt F) → (⟨S8192, .i32⟩ : BufTy).Contents (Elt F) → (⟨S8192, .i1⟩ : BufTy).Contents (Elt F)),
    StableHlo.nullary main_c_14 (constantI S_ 32 256#32),
    StableHlo.unary main_c_14 main_v46 (broadcastInDim S8192 ![] bcast_S_S8192 : (⟨S_, .i32⟩ : BufTy).Contents (Elt F) → (⟨S8192, .i32⟩ : BufTy).Contents (Elt F)),
    StableHlo.binary main_v37 main_v46 main_v47 (addi : (⟨S8192, .i32⟩ : BufTy).Contents (Elt F) → (⟨S8192, .i32⟩ : BufTy).Contents (Elt F) → (⟨S8192, .i32⟩ : BufTy).Contents (Elt F)),
    StableHlo.ternary main_v45 main_v47 main_v37 main_v48 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v43 main_v49 (broadcastInDim S8192x1 ![0] bcast_S8192_S8192x1_0 : (⟨S8192, .i32⟩ : BufTy).Contents (Elt F) → (⟨S8192x1, .i32⟩ : BufTy).Contents (Elt F)),
    StableHlo.unary main_v48 main_v50 (broadcastInDim S8192x1 ![0] bcast_S8192_S8192x1_0 : (⟨S8192, .i32⟩ : BufTy).Contents (Elt F) → (⟨S8192x1, .i32⟩ : BufTy).Contents (Elt F)),
    StableHlo.binary main_v49 main_v50 main_v51 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v38 main_v51 main_v16 main_v52 ((fun x i u => Host.scatter scatter_S64x256x1024_S8192x2_S8192x1024_1_01_01_1 (fun _ b => b) x i u) : (⟨S64x256x1024, .f32⟩ : BufTy).Contents (Elt F) → (⟨S8192x2, .i32⟩ : BufTy).Contents (Elt F) → (⟨S8192x1024, .f32⟩ : BufTy).Contents (Elt F) → (⟨S64x256x1024, .f32⟩ : BufTy).Contents (Elt F)) ]
theorem opsDispatch_sub : (opsDispatch : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub ..⟩
theorem opsDispatch_fresh : (opsDispatch : List (HloOp τ sig (Elt F))).Forall fun op => op.fresh = ∅ := by
  simp only [List.Forall]; repeat' constructor

/-- The first grouped product, per expert, and its two halves along the last axis. -/
abbrev opsGateUp : List (HloOp τ sig (Elt F)) :=
  [ StableHlo.binary main_v52 main_arg3 main_v53 ((fun l r => Host.dotGeneral dot_S64x256x1024_S64x1024x1024_S64x256x1024_2_1_1_2_0_0 none l r) : (⟨S64x256x1024, .f32⟩ : BufTy).Contents (Elt F) → (⟨S64x1024x1024, .f32⟩ : BufTy).Contents (Elt F) → (⟨S64x256x1024, .f32⟩ : BufTy).Contents (Elt F)),
    StableHlo.unary main_v53 main_v54 ((extractStridedSlice S64x256x512 ![0, 0, 0] · slices_S64x256x1024_S64x256x512_0_0_0) : (⟨S64x256x1024, .f32⟩ : BufTy).Contents (Elt F) → (⟨S64x256x512, .f32⟩ : BufTy).Contents (Elt F)),
    StableHlo.unary main_v53 main_v55 ((extractStridedSlice S64x256x512 ![0, 0, 512] · slices_S64x256x1024_S64x256x512_0_0_512) : (⟨S64x256x1024, .f32⟩ : BufTy).Contents (Elt F) → (⟨S64x256x512, .f32⟩ : BufTy).Contents (Elt F)) ]
theorem opsGateUp_sub : (opsGateUp : List (HloOp τ sig (Elt F))).Forall fun op => op.bufs ⊆ StableHlo.tcRefs τ sig :=
  ⟨StableHlo.binary_bufs_sub .., StableHlo.unary_bufs_sub .., StableHlo.unary_bufs_sub ..⟩
theorem opsGateUp_fresh : (opsGateUp : List (HloOp τ sig (Elt F))).Forall fun op => op.fresh = ∅ := by
  simp only [List.Forall]; repeat' constructor

/-- X · 1 / (1 + exp (−x)) on the first half. -/
abbrev opsSilu : List (HloOp τ sig (Elt F)) :=
  [ StableHlo.TRef.unary (.of main_v54 : StableHlo.TRef sig ⟨S64x256x512, .f32⟩) (.of main_call4_v0 : StableHlo.TRef sig ⟨S64x256x512, .f32⟩) Host.negf,
    StableHlo.TRef.unary (.of main_call4_v0 : StableHlo.TRef sig ⟨S64x256x512, .f32⟩) (.of main_call4_v1 : StableHlo.TRef sig ⟨S64x256x512, .f32⟩) Host.exp,
    StableHlo.TRef.nullary (.of main_call4_cst : StableHlo.TRef sig ⟨S_, .f32⟩) (constant S_ .f32 0x3F800000#32),
    StableHlo.TRef.unary (.of main_call4_cst : StableHlo.TRef sig ⟨S_, .f32⟩) (.of main_call4_v2 : StableHlo.TRef sig ⟨S64x256x512, .f32⟩) (broadcastInDim S64x256x512 ![] bcast_S_S64x256x512),
    StableHlo.TRef.binary (.of main_call4_v2 : StableHlo.TRef sig ⟨S64x256x512, .f32⟩) (.of main_call4_v1 : StableHlo.TRef sig ⟨S64x256x512, .f32⟩) (.of main_call4_v3 : StableHlo.TRef sig ⟨S64x256x512, .f32⟩) addf,
    StableHlo.TRef.nullary (.of main_call4_cst_0 : StableHlo.TRef sig ⟨S_, .f32⟩) (constant S_ .f32 0x3F800000#32),
    StableHlo.TRef.unary (.of main_call4_cst_0 : StableHlo.TRef sig ⟨S_, .f32⟩) (.of main_call4_v4 : StableHlo.TRef sig ⟨S64x256x512, .f32⟩) (broadcastInDim S64x256x512 ![] bcast_S_S64x256x512),
    StableHlo.TRef.binary (.of main_call4_v4 : StableHlo.TRef sig ⟨S64x256x512, .f32⟩) (.of main_call4_v3 : StableHlo.TRef sig ⟨S64x256x512, .f32⟩) (.of main_call4_v5 : StableHlo.TRef sig ⟨S64x256x512, .f32⟩) Host.divf,
    StableHlo.TRef.binary (.of main_v54 : StableHlo.TRef sig ⟨S64x256x512, .f32⟩) (.of main_call4_v5 : StableHlo.TRef sig ⟨S64x256x512, .f32⟩) (.of main_v56 : StableHlo.TRef sig ⟨S64x256x512, .f32⟩) mulf ]
theorem opsSilu_sub : (opsSilu : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem opsSilu_fresh : (opsSilu : List (HloOp τ sig (Elt F))).Forall fun op => op.fresh = ∅ := by
  simp only [List.Forall]; repeat' constructor

/-- That times the second half, and the second grouped product. -/
abbrev opsDown : List (HloOp τ sig (Elt F)) :=
  [ StableHlo.binary main_v56 main_v55 main_v57 (mulf : (⟨S64x256x512, .f32⟩ : BufTy).Contents (Elt F) → (⟨S64x256x512, .f32⟩ : BufTy).Contents (Elt F) → (⟨S64x256x512, .f32⟩ : BufTy).Contents (Elt F)),
    StableHlo.binary main_v57 main_arg4 main_v58 ((fun l r => Host.dotGeneral dot_S64x256x512_S64x512x1024_S64x256x1024_2_1_1_2_0_0 none l r) : (⟨S64x256x512, .f32⟩ : BufTy).Contents (Elt F) → (⟨S64x512x1024, .f32⟩ : BufTy).Contents (Elt F) → (⟨S64x256x1024, .f32⟩ : BufTy).Contents (Elt F)) ]
theorem opsDown_sub : (opsDown : List (HloOp τ sig (Elt F))).Forall fun op => op.bufs ⊆ StableHlo.tcRefs τ sig :=
  ⟨StableHlo.binary_bufs_sub .., StableHlo.binary_bufs_sub ..⟩
theorem opsDown_fresh : (opsDown : List (HloOp τ sig (Elt F))).Forall fun op => op.fresh = ∅ := by
  simp only [List.Forall]; repeat' constructor

/-- The result rows gathered back at the (expert, slot) pairs and scattered to their places before the sort. -/
abbrev opsCombine : List (HloOp τ sig (Elt F)) :=
  [ StableHlo.nullary main_c_15 (constantI S_ 32 0#32),
    StableHlo.unary main_c_15 main_v59 (broadcastInDim S8192 ![] bcast_S_S8192 : (⟨S_, .i32⟩ : BufTy).Contents (Elt F) → (⟨S8192, .i32⟩ : BufTy).Contents (Elt F)),
    StableHlo.binary main_v8 main_v59 main_v60 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 64#32),
    StableHlo.unary main_c_16 main_v61 (broadcastInDim S8192 ![] bcast_S_S8192 : (⟨S_, .i32⟩ : BufTy).Contents (Elt F) → (⟨S8192, .i32⟩ : BufTy).Contents (Elt F)),
    StableHlo.binary main_v8 main_v61 main_v62 (addi : (⟨S8192, .i32⟩ : BufTy).Contents (Elt F) → (⟨S8192, .i32⟩ : BufTy).Contents (Elt F) → (⟨S8192, .i32⟩ : BufTy).Contents (Elt F)),
    StableHlo.ternary main_v60 main_v62 main_v8 main_v63 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_17 (constantI S_ 32 0#32),
    StableHlo.unary main_c_17 main_v64 (broadcastInDim S8192 ![] bcast_S_S8192 : (⟨S_, .i32⟩ : BufTy).Contents (Elt F) → (⟨S8192, .i32⟩ : BufTy).Contents (Elt F)),
    StableHlo.binary main_v37 main_v64 main_v65 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 256#32),
    StableHlo.unary main_c_18 main_v66 (broadcastInDim S8192 ![] bcast_S_S8192 : (⟨S_, .i32⟩ : BufTy).Contents (Elt F) → (⟨S8192, .i32⟩ : BufTy).Contents (Elt F)),
    StableHlo.binary main_v37 main_v66 main_v67 (addi : (⟨S8192, .i32⟩ : BufTy).Contents (Elt F) → (⟨S8192, .i32⟩ : BufTy).Contents (Elt F) → (⟨S8192, .i32⟩ : BufTy).Contents (Elt F)),
    StableHlo.ternary main_v65 main_v67 main_v37 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v63 main_v69 (broadcastInDim S8192x1 ![0] bcast_S8192_S8192x1_0 : (⟨S8192, .i32⟩ : BufTy).Contents (Elt F) → (⟨S8192x1, .i32⟩ : BufTy).Contents (Elt F)),
    StableHlo.unary main_v68 main_v70 (broadcastInDim S8192x1 ![0] bcast_S8192_S8192x1_0 : (⟨S8192, .i32⟩ : BufTy).Contents (Elt F) → (⟨S8192x1, .i32⟩ : BufTy).Contents (Elt F)),
    StableHlo.binary main_v69 main_v70 main_v71 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v58 main_v71 main_v72 ((fun x i => Host.gather gather_S64x256x1024_S8192x2_S8192x1024_1_01_n_n_01_1_111024 x i) : (⟨S64x256x1024, .f32⟩ : BufTy).Contents (Elt F) → (⟨S8192x2, .i32⟩ : BufTy).Contents (Elt F) → (⟨S8192x1024, .f32⟩ : BufTy).Contents (Elt F)),
    StableHlo.nullary main_cst_19 (constant S_ .f32 0x00000000#32),
    StableHlo.unary main_cst_19 main_v73 (broadcastInDim S8192x1024 ![] bcast_S_S8192x1024 : (⟨S_, .f32⟩ : BufTy).Contents (Elt F) → (⟨S8192x1024, .f32⟩ : BufTy).Contents (Elt F)),
    StableHlo.nullary main_c_20 (constantI S_ 32 0#32),
    StableHlo.unary main_c_20 main_v74 (broadcastInDim S8192 ![] bcast_S_S8192 : (⟨S_, .i32⟩ : BufTy).Contents (Elt F) → (⟨S8192, .i32⟩ : BufTy).Contents (Elt F)),
    StableHlo.binary main_v1 main_v74 main_v75 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 8192#32),
    StableHlo.unary main_c_21 main_v76 (broadcastInDim S8192 ![] bcast_S_S8192 : (⟨S_, .i32⟩ : BufTy).Contents (Elt F) → (⟨S8192, .i32⟩ : BufTy).Contents (Elt F)),
    StableHlo.binary main_v1 main_v76 main_v77 (addi : (⟨S8192, .i32⟩ : BufTy).Contents (Elt F) → (⟨S8192, .i32⟩ : BufTy).Contents (Elt F) → (⟨S8192, .i32⟩ : BufTy).Contents (Elt F)),
    StableHlo.ternary main_v75 main_v77 main_v1 main_v78 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v78 main_v79 (broadcastInDim S8192x1 ![0] bcast_S8192_S8192x1_0 : (⟨S8192, .i32⟩ : BufTy).Contents (Elt F) → (⟨S8192x1, .i32⟩ : BufTy).Contents (Elt F)),
    StableHlo.ternary main_v73 main_v79 main_v72 main_v80 ((fun x i u => Host.scatter scatter_S8192x1024_S8192x1_S8192x1024_1_0_0_1 (fun _ b => b) x i u) : (⟨S8192x1024, .f32⟩ : BufTy).Contents (Elt F) → (⟨S8192x1, .i32⟩ : BufTy).Contents (Elt F) → (⟨S8192x1024, .f32⟩ : BufTy).Contents (Elt F) → (⟨S8192x1024, .f32⟩ : BufTy).Contents (Elt F)) ]
theorem opsCombine_sub : (opsCombine : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩
theorem opsCombine_fresh : (opsCombine : List (HloOp τ sig (Elt F))).Forall fun op => op.fresh = ∅ := by
  simp only [List.Forall]; repeat' constructor

/-! ## The program is the lists run in order -/

/-- The first window of the program is its first nine stretches. -/
theorem part0_chain (c : Dev nD) : main_part0 (F := F) c = (Pipeline.chainK
  [ StableHlo.seq opsFlat,
    StableHlo.seq opsArgsort,
    StableHlo.seq opsSeg,
    StableHlo.seq opsTokenOf,
    StableHlo.seq opsRows,
    StableHlo.seq opsClip,
    StableHlo.seq opsCounts,
    StableHlo.seq opsCumsum ]
  (StableHlo.seq opsSlot) : Prog (TpuEff nD τ sig (Elt F) (Pipeline.Sig Λ₀ (Fin 0) fun p => (pcfgs (F := F) p).Adm) .tc) PUnit) := by
  chain_rfl

/-- The second window is the last stretch of the dispatch, the products and the combine. -/
theorem part1_chain (c : Dev nD) : main_part1 (F := F) c = (Pipeline.chain
  [ StableHlo.seq opsDispatch,
    StableHlo.seq opsGateUp,
    StableHlo.seq opsSilu,
    StableHlo.seq opsDown,
    StableHlo.seq opsCombine ] : Prog (TpuEff nD τ sig (Elt F) (Pipeline.Sig Λ₀ (Fin 0) fun p => (pcfgs (F := F) p).Adm) .tc) PUnit) := by
  chain_rfl

/-- The whole program is the fourteen stretches in order. -/
theorem main_chain (c : Dev nD) : main (F := F) c = (Pipeline.chain
  [ StableHlo.seq opsFlat,
    StableHlo.seq opsArgsort,
    StableHlo.seq opsSeg,
    StableHlo.seq opsTokenOf,
    StableHlo.seq opsRows,
    StableHlo.seq opsClip,
    StableHlo.seq opsCounts,
    StableHlo.seq opsCumsum,
    StableHlo.seq opsSlot,
    StableHlo.seq opsDispatch,
    StableHlo.seq opsGateUp,
    StableHlo.seq opsSilu,
    StableHlo.seq opsDown,
    StableHlo.seq opsCombine ] : Prog (TpuEff nD τ sig (Elt F) (Pipeline.Sig Λ₀ (Fin 0) fun p => (pcfgs (F := F) p).Adm) .tc) PUnit) := by
  show (main_part0 (F := F) c >>= fun _ => main_part1 (F := F) c) = _
  rewrite [part1_chain, part0_chain, Pipeline.chainK_bind_chain]
  chain_rfl

/-- Lines run one after the other are their concatenation run as one line. -/
theorem chain_map_seq {nD : Nat} {τ : Topo} {sig : RefSig} {Val : EltTy → Type} {Λ : Labels} :
    ∀ Ls : List (List (HloOp τ sig Val)),
      (Pipeline.chain (Ls.map fun l => (StableHlo.seq l : Prog (TpuEff nD τ sig Val Λ .tc) PUnit))) = StableHlo.seq Ls.flatten
  | [] => rfl
  | l :: Ls => by
    rw [List.map_cons, Pipeline.chain_cons, chain_map_seq Ls, List.flatten_cons, StableHlo.seq_append]

/-- A property of every operation of every line holds of every operation of the concatenation. -/
theorem forall_flatten {α : Type} {P : α → Prop} (Ls : List (List α)) (h : ∀ l ∈ Ls, l.Forall P) : Ls.flatten.Forall P :=
  List.forall_iff_forall_mem.mpr fun x hx => by
    obtain ⟨l, hl, hxl⟩ := List.mem_flatten.mp hx
    exact (List.forall_iff_forall_mem.mp (h l hl)) x hxl

/-- The dispatch: from the expert ids and the hidden rows to the dense per-expert buffer. -/
abbrev dispatch : List (List (HloOp τ sig (Elt F))) := [opsFlat, opsArgsort, opsSeg, opsTokenOf, opsRows, opsClip, opsCounts, opsCumsum, opsSlot, opsDispatch]
/-- The two grouped products with x · sigmoid x · up between them. -/
abbrev products : List (List (HloOp τ sig (Elt F))) := [opsGateUp, opsSilu, opsDown]
/-- The whole line. -/
abbrev ops : List (HloOp τ sig (Elt F)) := (dispatch ++ products ++ [opsCombine]).flatten

theorem main_eq (c : Dev nD) : main (F := F) c = StableHlo.seq ops := by
  rw [main_chain c]
  exact chain_map_seq (nD := nD) (τ := τ) (sig := sig) (Val := Elt F) (dispatch ++ products ++ [opsCombine])

theorem ops_sub : (ops : List (HloOp τ sig (Elt F))).Forall fun op => op.bufs ⊆ StableHlo.tcRefs τ sig :=
  forall_flatten _ (by
    intro l hl
    simp only [List.cons_append, List.nil_append, List.mem_cons, List.mem_nil_iff, or_false] at hl
    rcases hl with rfl | rfl | rfl | rfl | rfl | rfl | rfl | rfl | rfl | rfl | rfl | rfl | rfl | rfl
    exacts [opsFlat_sub, opsArgsort_sub, opsSeg_sub, opsTokenOf_sub, opsRows_sub, opsClip_sub, opsCounts_sub, opsCumsum_sub, opsSlot_sub, opsDispatch_sub, opsGateUp_sub, opsSilu_sub, opsDown_sub, opsCombine_sub])

theorem ops_fresh : ∀ op ∈ (ops : List (HloOp τ sig (Elt F))), op.fresh = ∅ :=
  List.forall_iff_forall_mem.mp (forall_flatten _ (by
    intro l hl
    simp only [List.cons_append, List.nil_append, List.mem_cons, List.mem_nil_iff, or_false] at hl
    rcases hl with rfl | rfl | rfl | rfl | rfl | rfl | rfl | rfl | rfl | rfl | rfl | rfl | rfl | rfl
    exacts [opsFlat_fresh, opsArgsort_fresh, opsSeg_fresh, opsTokenOf_fresh, opsRows_fresh, opsClip_fresh, opsCounts_fresh, opsCumsum_fresh, opsSlot_fresh, opsDispatch_fresh, opsGateUp_fresh, opsSilu_fresh, opsDown_fresh, opsCombine_fresh]))

theorem scopedRefs_eq : (Finset.univ.filter fun b : Ref sig .tc => b.isScoped) = ∅ := by decide
theorem scopedSems_eq : (Finset.univ.filter fun sm : SemLoc sig => sm.isScoped .tc) = ∅ := by decide

/-- The contents after the whole line, in three steps: the dispatch, then the products, then the combine. -/
theorem after_ops (V : Valuation τ sig (Elt F)) :
    StableHlo.after ops V = StableHlo.after opsCombine (StableHlo.after products.flatten (StableHlo.after dispatch.flatten V)) := by
  show StableHlo.after ((dispatch ++ products ++ [opsCombine]).flatten) V = _
  rw [List.flatten_append, List.flatten_append, StableHlo.after_append, StableHlo.after_append]
  simp only [List.flatten_cons, List.flatten_nil, List.append_nil]

/-- On every device, for any float values, from any memory with zero counters: every weakly fair execution of the
    program terminates, and each buffer ends at the combine of the products of the dispatch of the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = StableHlo.after opsCombine (StableHlo.after products.flatten (StableHlo.after dispatch.flatten (StableHlo.launchContents m c))) (Proc.devRef .tc b) :=
  (θ_run defs _ _).mono (fun _ h c b => (h c b).trans (congrFun (after_ops _) _))
    (StableHlo.run_seq scopedRefs_eq scopedSems_eq defs main (fun _ => ops) main_eq (fun _ => ops_sub) m ρ (fun _ => ops_fresh))

end Cert.ReferenceIdeal.Host

end
-- ==== Proof.ReferenceKeeps.lean ====
import proofs.«122034_j37752762532030_1_alg».proof.Proof.ReferenceLine

/-!
  No operation of the reference line writes an argument array: each writes only its own result buffer. So every argument
  ends as launched, and the dispatch alone leaves the two weights as launched.
-/

noncomputable section

namespace Cert.ReferenceIdeal.Host

open Cert.ReferenceIdeal Cert.ReferenceIdeal.Gen Idealize.ShloMosaic Idealize.ShloMosaic.TcCoe Idealize.SL.Sem

variable {F : FTy → Type} [FloatOps F]

/-- The line leaves argument 0 as it found it. -/
theorem line_keeps_arg0 (V : Valuation τ sig (Elt F)) :
    StableHlo.after opsCombine (StableHlo.after (products (F := F)).flatten (StableHlo.after (dispatch (F := F)).flatten V)) (Proc.devRef .tc main_arg0)
      = V (Proc.devRef .tc main_arg0) :=
  (congrFun (after_ops V) _).symm.trans
    (StableHlo.after_of_forall_not_mem (b := Proc.devRef .tc main_arg0) _ _ (List.forall_iff_forall_mem.mp (by
    simp only [ops, dispatch, products, opsFlat, opsArgsort, opsSeg, opsTokenOf, opsRows, opsClip, opsCounts, opsCumsum, opsSlot, opsDispatch, opsGateUp, opsSilu, opsDown, opsCombine, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
/-- The line leaves argument 1 as it found it. -/
theorem line_keeps_arg1 (V : Valuation τ sig (Elt F)) :
    StableHlo.after opsCombine (StableHlo.after (products (F := F)).flatten (StableHlo.after (dispatch (F := F)).flatten V)) (Proc.devRef .tc main_arg1)
      = V (Proc.devRef .tc main_arg1) :=
  (congrFun (after_ops V) _).symm.trans
    (StableHlo.after_of_forall_not_mem (b := Proc.devRef .tc main_arg1) _ _ (List.forall_iff_forall_mem.mp (by
    simp only [ops, dispatch, products, opsFlat, opsArgsort, opsSeg, opsTokenOf, opsRows, opsClip, opsCounts, opsCumsum, opsSlot, opsDispatch, opsGateUp, opsSilu, opsDown, opsCombine, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
/-- The line leaves argument 2 as it found it. -/
theorem line_keeps_arg2 (V : Valuation τ sig (Elt F)) :
    StableHlo.after opsCombine (StableHlo.after (products (F := F)).flatten (StableHlo.after (dispatch (F := F)).flatten V)) (Proc.devRef .tc main_arg2)
      = V (Proc.devRef .tc main_arg2) :=
  (congrFun (after_ops V) _).symm.trans
    (StableHlo.after_of_forall_not_mem (b := Proc.devRef .tc main_arg2) _ _ (List.forall_iff_forall_mem.mp (by
    simp only [ops, dispatch, products, opsFlat, opsArgsort, opsSeg, opsTokenOf, opsRows, opsClip, opsCounts, opsCumsum, opsSlot, opsDispatch, opsGateUp, opsSilu, opsDown, opsCombine, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
/-- The line leaves argument 3 as it found it. -/
theorem line_keeps_arg3 (V : Valuation τ sig (Elt F)) :
    StableHlo.after opsCombine (StableHlo.after (products (F := F)).flatten (StableHlo.after (dispatch (F := F)).flatten V)) (Proc.devRef .tc main_arg3)
      = V (Proc.devRef .tc main_arg3) :=
  (congrFun (after_ops V) _).symm.trans
    (StableHlo.after_of_forall_not_mem (b := Proc.devRef .tc main_arg3) _ _ (List.forall_iff_forall_mem.mp (by
    simp only [ops, dispatch, products, opsFlat, opsArgsort, opsSeg, opsTokenOf, opsRows, opsClip, opsCounts, opsCumsum, opsSlot, opsDispatch, opsGateUp, opsSilu, opsDown, opsCombine, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
/-- The line leaves argument 4 as it found it. -/
theorem line_keeps_arg4 (V : Valuation τ sig (Elt F)) :
    StableHlo.after opsCombine (StableHlo.after (products (F := F)).flatten (StableHlo.after (dispatch (F := F)).flatten V)) (Proc.devRef .tc main_arg4)
      = V (Proc.devRef .tc main_arg4) :=
  (congrFun (after_ops V) _).symm.trans
    (StableHlo.after_of_forall_not_mem (b := Proc.devRef .tc main_arg4) _ _ (List.forall_iff_forall_mem.mp (by
    simp only [ops, dispatch, products, opsFlat, opsArgsort, opsSeg, opsTokenOf, opsRows, opsClip, opsCounts, opsCumsum, opsSlot, opsDispatch, opsGateUp, opsSilu, opsDown, opsCombine, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
/-- The dispatch leaves argument 3 as it found it. -/
theorem dispatch_keeps_arg3 (V : Valuation τ sig (Elt F)) :
    StableHlo.after (dispatch (F := F)).flatten V (Proc.devRef .tc main_arg3) = V (Proc.devRef .tc main_arg3) :=
  StableHlo.after_of_forall_not_mem (b := Proc.devRef .tc main_arg3) _ _ (List.forall_iff_forall_mem.mp (by
    simp only [dispatch, opsFlat, opsArgsort, opsSeg, opsTokenOf, opsRows, opsClip, opsCounts, opsCumsum, opsSlot, opsDispatch, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The dispatch leaves argument 4 as it found it. -/
theorem dispatch_keeps_arg4 (V : Valuation τ sig (Elt F)) :
    StableHlo.after (dispatch (F := F)).flatten V (Proc.devRef .tc main_arg4) = V (Proc.devRef .tc main_arg4) :=
  StableHlo.after_of_forall_not_mem (b := Proc.devRef .tc main_arg4) _ _ (List.forall_iff_forall_mem.mp (by
    simp only [dispatch, opsFlat, opsArgsort, opsSeg, opsTokenOf, opsRows, opsClip, opsCounts, opsCumsum, opsSlot, opsDispatch, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The combine does not write the sort permutation. -/
theorem combine_keeps_sortIdx (W : Valuation τ sig (Elt F)) :
    StableHlo.after (opsCombine (F := F)) W (Proc.devRef .tc main_v1) = W (Proc.devRef .tc main_v1) := by
  simp only [opsCombine]
  after_results_simp

end Cert.ReferenceIdeal.Host

end
-- ==== Proof.LibBatchDot.lean ====
import Idealize.ShloMosaic.PureOps.Ideal.Laws
import Idealize.ShloMosaic.Lib.ValueIdx
import Idealize.ShloMosaic.PureOps.Dims

/-!
  A batched matrix product: a left operand of shape [B, M, K] and a right operand of shape [B, K, N], paired on their
  axis 0 and contracted on the left's axis 2 against the right's axis 1, give a result of shape [B, M, N] whose entry
  (b, p, q) is the sum over k < K of l(b, p, k) · r(b, k, q). The dimension record is a variable and its six lists are
  hypotheses, so the lemmas apply to every record of this shape.
-/

open scoped BigOperators

namespace Cert.Lib.BatchDot

open Idealize.ShloMosaic Idealize.ShloMosaic.ValueIdx

variable {B M K N : Nat} (d : DotDims ⟨3, ![B, M, K]⟩ ⟨3, ![B, K, N]⟩ ⟨3, ![B, M, N]⟩)

/-- With one contracting axis the contraction shape has rank one. -/
theorem rank_contr_eq_one (hlc : d.lhsContracting = [2]) : d.contr.rank = 1 := by
  rw [d.rank_contr, hlc]; rfl

/-- The one axis of the contraction shape has the extent K of the left operand's axis 2. -/
theorem size_contr_eq (hlc : d.lhsContracting = [2]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 2 := by simp [hlc]
  rw [h1]; rfl

/-- The left operand's index reads, on its batch axis 0, the result index's batch coordinate. -/
theorem lhsIdx_zero_val (hlb : d.lhsBatch = [0])
    (j : (⟨3, ![B, M, N]⟩ : Shape).Idx) (k : d.contr.Idx) : (d.lhsIdx j k 0).val = (j 0).val := by
  have hb : (0 : Fin (⟨3, ![B, M, K]⟩ : Shape).rank) ∈ d.lhsBatch := by rw [hlb]; exact List.mem_singleton.mpr rfl
  unfold DotDims.lhsIdx
  rw [dif_pos hb]
  simp only [Fin.val_cast]
  have key : ∀ (n : Nat) (h : n < (⟨3, ![B, M, N]⟩ : Shape).rank), n = 0 → (j ⟨n, h⟩).val = (j 0).val :=
    fun n h e => by subst e; rfl
  exact key _ _ (by simp [hlb])

/-- The left operand's index reads, on its non-contracting axis 1, the result index's row. -/
theorem lhsIdx_one_val (hlb : d.lhsBatch = [0]) (hln : d.lhsNonContracting = [1])
    (j : (⟨3, ![B, M, N]⟩ : Shape).Idx) (k : d.contr.Idx) : (d.lhsIdx j k 1).val = (j 1).val := by
  have hb : (1 : Fin (⟨3, ![B, M, K]⟩ : Shape).rank) ∉ d.lhsBatch := by
    rw [hlb]; show (1 : Fin 3) ∉ ([0] : List (Fin 3)); decide
  have hn : (1 : Fin (⟨3, ![B, M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨3, ![B, M, N]⟩ : Shape).rank), n = 1 → (j ⟨n, h⟩).val = (j 1).val :=
    fun n h e => by subst e; rfl
  exact key _ _ (by simp [hlb, hln])

/-- The right operand's index reads, on its batch axis 0, the result index's batch coordinate. -/
theorem rhsIdx_zero_val (hrb : d.rhsBatch = [0])
    (j : (⟨3, ![B, M, N]⟩ : Shape).Idx) (k : d.contr.Idx) : (d.rhsIdx j k 0).val = (j 0).val := by
  have hb : (0 : Fin (⟨3, ![B, K, N]⟩ : Shape).rank) ∈ d.rhsBatch := by rw [hrb]; exact List.mem_singleton.mpr rfl
  unfold DotDims.rhsIdx
  rw [dif_pos hb]
  simp only [Fin.val_cast]
  have key : ∀ (n : Nat) (h : n < (⟨3, ![B, M, N]⟩ : Shape).rank), n = 0 → (j ⟨n, h⟩).val = (j 0).val :=
    fun n h e => by subst e; rfl
  exact key _ _ (by simp [hrb])

/-- The right operand's index reads, on its non-contracting axis 2, the result index's column. -/
theorem rhsIdx_two_val (hlb : d.lhsBatch = [0]) (hln : d.lhsNonContracting = [1])
    (hrb : d.rhsBatch = [0]) (hrn : d.rhsNonContracting = [2])
    (j : (⟨3, ![B, M, N]⟩ : Shape).Idx) (k : d.contr.Idx) : (d.rhsIdx j k 2).val = (j 2).val := by
  have hb : (2 : Fin (⟨3, ![B, K, N]⟩ : Shape).rank) ∉ d.rhsBatch := by
    rw [hrb]; show (2 : Fin 3) ∉ ([0] : List (Fin 3)); decide
  have hn : (2 : Fin (⟨3, ![B, K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨3, ![B, M, N]⟩ : Shape).rank), n = 2 → (j ⟨n, h⟩).val = (j 2).val :=
    fun n h e => by subst e; rfl
  exact key _ _ (by simp [hlb, hln, hrn])

/-- The contraction sum of a batched matrix product at entry (b, p, q), re-indexed by the one contraction coordinate, is
    the sum over k < K of l(b, p, k) · r(b, k, q). -/
theorem sum_eq (hlc : d.lhsContracting = [2]) (hrc : d.rhsContracting = [1])
    (hln : d.lhsNonContracting = [1]) (hrn : d.rhsNonContracting = [2])
    (hlb : d.lhsBatch = [0]) (hrb : d.rhsBatch = [0])
    (l : (⟨3, ![B, M, K]⟩ : Shape).Idx → EReal) (r : (⟨3, ![B, K, N]⟩ : Shape).Idx → EReal)
    (b : Fin B) (p : Fin M) (q : Fin N) :
    (∑ k : d.contr.Idx, l (d.lhsIdx (ix3 b p q) k) * r (d.rhsIdx (ix3 b p q) k))
      = ∑ k : Fin K, l (ix3 b p k) * r (ix3 b k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix3 b p q) k) * r (d.rhsIdx (ix3 b p q) k))).symm.trans ?_
  refine Finset.sum_congr rfl fun i _ => ?_
  have hL : d.lhsIdx (ix3 b p q) ((contrEquiv1 d K hr hs).symm i) = ix3 b p i := by
    funext a
    match a with
    | ⟨0, _⟩ => exact Fin.ext (lhsIdx_zero_val d hlb _ _)
    | ⟨1, _⟩ => exact Fin.ext (lhsIdx_one_val d hlb hln _ _)
    | ⟨2, _⟩ => exact Fin.ext ((d.lhsIdx_val_of_single hlc _ _).trans (contrEquiv1_symm_val d K hr hs i))
  have hR : d.rhsIdx (ix3 b p q) ((contrEquiv1 d K hr hs).symm i) = ix3 b i q := by
    funext a
    match a with
    | ⟨0, _⟩ => exact Fin.ext (rhsIdx_zero_val d hrb _ _)
    | ⟨1, _⟩ => exact Fin.ext ((d.rhsIdx_val_of_single hrc _ _).trans (contrEquiv1_symm_val d K hr hs i))
    | ⟨2, _⟩ => exact Fin.ext (rhsIdx_two_val d hlb hln hrb hrn _ _)
  show l _ * r _ = _
  rw [hL, hR]

/-- The host's batched matrix product, read at entry (b, p, q) at the ideal values, is the sum over k < K of
    l(b, p, k) · r(b, k, q), whatever the schedule. -/
theorem dotGeneral_apply {φ₁ φ₂ : FTy} (hlc : d.lhsContracting = [2]) (hrc : d.rhsContracting = [1])
    (hln : d.lhsNonContracting = [1]) (hrn : d.rhsNonContracting = [2])
    (hlb : d.lhsBatch = [0]) (hrb : d.rhsBatch = [0]) (prec : Option ContractPrecision) (sched : HostSchedule)
    (l : FVec Ideal ⟨3, ![B, M, K]⟩ φ₁) (r : FVec Ideal ⟨3, ![B, K, N]⟩ φ₂) (b : Fin B) (p : Fin M) (q : Fin N) :
    FloatOps.dotGeneral d prec sched l r (ix3 b p q) = ∑ k : Fin K, l (ix3 b p k) * r (ix3 b k q) :=
  (Ideal.dotGeneral_apply d prec sched l r (ix3 b p q)).trans (sum_eq d hlc hrc hln hrn hlb hrb l r b p q)

end Cert.Lib.BatchDot
-- ==== Proof.ReferenceProducts.lean ====
import proofs.«122034_j37752762532030_1_alg».proof.Proof.ReferenceLine
import proofs.«122034_j37752762532030_1_alg».proof.Proof.ExpertSpec
import proofs.«122034_j37752762532030_1_alg».proof.Proof.LibBatchDot
import Idealize.ShloMosaic.Lib.IdealHost
import Idealize.ShloMosaic.Lib.Pipeline.Value

/-!
  The reference's two grouped products, read at the ideal values: from the dense buffer and the two weights they leave,
  at (e, c, h), the sum over i < 512 of gate · sigmoid(gate) · up times the second weight, gate and up being the two
  halves of the first product. The reference spells the sigmoid as 1 / (1 + exp(−gate)), which is the ideal logistic
  function on every extended real. The products write none of the buffers the combine reads besides their result.
-/

open scoped BigOperators

noncomputable section

namespace Cert.ReferenceIdeal.Products

open Cert.ReferenceIdeal Cert.ReferenceIdeal.Gen Cert.ReferenceIdeal.Host Cert.Experts
open Idealize.ShloMosaic Idealize.ShloMosaic.TcCoe Idealize.ShloMosaic.ValueIdx Idealize.SL.Sem Idealize.ShloMosaic.StableHlo

/-- The first grouped product. -/
abbrev mm13 (x : FVec Ideal S64x256x1024 .f32) (w13 : FVec Ideal S64x1024x1024 .f32) : FVec Ideal S64x256x1024 .f32 :=
  Host.dotGeneral dot_S64x256x1024_S64x1024x1024_S64x256x1024_2_1_1_2_0_0 none x w13

theorem mm13_apply (x : FVec Ideal S64x256x1024 .f32) (w13 : FVec Ideal S64x1024x1024 .f32) (e : Fin 64) (c : Fin 256) (n : Fin 1024) :
    mm13 x w13 (ix3 e c n) = proj x w13 e c n :=
  Cert.Lib.BatchDot.dotGeneral_apply dot_S64x256x1024_S64x1024x1024_S64x256x1024_2_1_1_2_0_0 rfl rfl rfl rfl rfl rfl none .single x w13 e c n

/-- Its first half along the last axis is the gate. -/
theorem gate_apply (x : FVec Ideal S64x256x1024 .f32) (w13 : FVec Ideal S64x1024x1024 .f32) (e : Fin 64) (c : Fin 256) (i : Fin 512) :
    extractStridedSlice S64x256x512 ![0, 0, 0] (mm13 x w13) slices_S64x256x1024_S64x256x512_0_0_0 (ix3 e c i) = proj x w13 e c (gateCol i) :=
  (extractStridedSlice_apply _ _ _ (ix3 e c i) (ix3 e c (gateCol i)) (fun a => by
    match a with
    | ⟨0, _⟩ => exact (Nat.zero_add _).symm
    | ⟨1, _⟩ => exact (Nat.zero_add _).symm
    | ⟨2, _⟩ => exact (Nat.zero_add _).symm)).trans (mm13_apply x w13 e c (gateCol i))

/-- Its second half is the up projection. -/
theorem up_apply (x : FVec Ideal S64x256x1024 .f32) (w13 : FVec Ideal S64x1024x1024 .f32) (e : Fin 64) (c : Fin 256) (i : Fin 512) :
    extractStridedSlice S64x256x512 ![0, 0, 512] (mm13 x w13) slices_S64x256x1024_S64x256x512_0_0_512 (ix3 e c i) = proj x w13 e c (upCol i) :=
  (extractStridedSlice_apply _ _ _ (ix3 e c i) (ix3 e c (upCol i)) (fun a => by
    match a with
    | ⟨0, _⟩ => exact (Nat.zero_add _).symm
    | ⟨1, _⟩ => exact (Nat.zero_add _).symm
    | ⟨2, _⟩ => rfl)).trans (mm13_apply x w13 e c (upCol i))

/-- The products' composed term is the experts' result. -/
theorem products_value (x : FVec Ideal S64x256x1024 .f32) (w13 : FVec Ideal S64x1024x1024 .f32) (w2 : FVec Ideal S64x512x1024 .f32) :
    Host.dotGeneral dot_S64x256x512_S64x512x1024_S64x256x1024_2_1_1_2_0_0 none
        (mulf
          (mulf (extractStridedSlice S64x256x512 ![0, 0, 0] (mm13 x w13) slices_S64x256x1024_S64x256x512_0_0_0)
            (Host.divf (broadcastInDim S64x256x512 ![] bcast_S_S64x256x512 (constant S_ .f32 0x3F800000#32))
              (addf (broadcastInDim S64x256x512 ![] bcast_S_S64x256x512 (constant S_ .f32 0x3F800000#32))
                (Host.exp (Host.negf (extractStridedSlice S64x256x512 ![0, 0, 0] (mm13 x w13) slices_S64x256x1024_S64x256x512_0_0_0))))))
          (extractStridedSlice S64x256x512 ![0, 0, 512] (mm13 x w13) slices_S64x256x1024_S64x256x512_0_0_512))
        w2
      = Cert.Experts.out x w13 w2 := by
  funext j
  obtain ⟨e, c, h, rfl⟩ : ∃ (e : Fin 64) (c : Fin 256) (h : Fin 1024), j = ix3 e c h := ⟨j 0, j 1, j 2, eq_ix3 j⟩
  rw [out_ix3]
  refine (Cert.Lib.BatchDot.dotGeneral_apply dot_S64x256x512_S64x512x1024_S64x256x1024_2_1_1_2_0_0 rfl rfl rfl rfl rfl rfl none .single _ w2 e c h).trans ?_
  unfold outAt
  refine Finset.sum_congr rfl fun i _ => ?_
  refine congrArg (· * w2 (ix3 e i h)) ?_
  show (extractStridedSlice S64x256x512 ![0, 0, 0] (mm13 x w13) slices_S64x256x1024_S64x256x512_0_0_0 (ix3 e c i)
        * Ideal.div (Ideal.ofBits .f32 0x3F800000#32)
            (Ideal.ofBits .f32 0x3F800000#32
              + Ideal.exp (-(extractStridedSlice S64x256x512 ![0, 0, 0] (mm13 x w13) slices_S64x256x1024_S64x256x512_0_0_0 (ix3 e c i)))))
      * extractStridedSlice S64x256x512 ![0, 0, 512] (mm13 x w13) slices_S64x256x1024_S64x256x512_0_0_512 (ix3 e c i)
      = inter x w13 e c i
  rw [gate_apply, up_apply, Ideal.ofBits_one_f32]
  rfl

/-- What the products leave in their result buffer. -/
theorem products_out (W : Valuation τ sig (Elt Ideal)) :
    StableHlo.after (products (F := Ideal)).flatten W (Proc.devRef .tc main_v58)
      = Cert.Experts.out (W (Proc.devRef .tc main_v52)) (W (Proc.devRef .tc main_arg3)) (W (Proc.devRef .tc main_arg4)) := by
  simp only [products, opsGateUp, opsSilu, opsDown, List.flatten_cons, List.flatten_nil, List.append_nil, List.cons_append, List.nil_append]
  after_results_simp
  exact products_value (W (Proc.devRef .tc main_v52)) (W (Proc.devRef .tc main_arg3)) (W (Proc.devRef .tc main_arg4))

/-- The products keep the sort permutation, -/
theorem products_keep_sortIdx (W : Valuation τ sig (Elt Ideal)) :
    StableHlo.after (products (F := Ideal)).flatten W (Proc.devRef .tc main_v1) = W (Proc.devRef .tc main_v1) := by
  simp only [products, opsGateUp, opsSilu, opsDown, List.flatten_cons, List.flatten_nil, List.append_nil, List.cons_append, List.nil_append]
  after_results_simp
/-- the expert id per sorted row, -/
theorem products_keep_seg (W : Valuation τ sig (Elt Ideal)) :
    StableHlo.after (products (F := Ideal)).flatten W (Proc.devRef .tc main_v8) = W (Proc.devRef .tc main_v8) := by
  simp only [products, opsGateUp, opsSilu, opsDown, List.flatten_cons, List.flatten_nil, List.append_nil, List.cons_append, List.nil_append]
  after_results_simp
/-- and the slot per sorted row. -/
theorem products_keep_slot (W : Valuation τ sig (Elt Ideal)) :
    StableHlo.after (products (F := Ideal)).flatten W (Proc.devRef .tc main_v37) = W (Proc.devRef .tc main_v37) := by
  simp only [products, opsGateUp, opsSilu, opsDown, List.flatten_cons, List.flatten_nil, List.append_nil, List.cons_append, List.nil_append]
  after_results_simp

end Cert.ReferenceIdeal.Products

end
-- ==== Proof.HostAgreeDefs.lean ====
import proofs.«122034_j37752762532030_1_alg».proof.Proof.Gen.KernelIdeal.Launch
import proofs.«122034_j37752762532030_1_alg».proof.Proof.ReferenceLine

/-!
  The two programs' dispatches up to their last stretch (everything before the slot index is wrapped and the rows are
  scattered into the dense buffer), as one list of operations each.
-/

noncomputable section

namespace Cert.HostAgree

open Idealize.ShloMosaic Idealize.ShloMosaic.TcCoe Idealize.SL.Sem Idealize.ShloMosaic.StableHlo

variable {F : FTy → Type} [FloatOps F]

/-- The kernel program's dispatch but for its last ten operations. -/
abbrev headK : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.main_part0_ops8]
/-- The reference's dispatch but for its last ten operations. -/
abbrev headR : List (HloOp Cert.ReferenceIdeal.τ Cert.ReferenceIdeal.sig (Elt F)) :=
  List.flatten [Cert.ReferenceIdeal.Host.opsFlat, Cert.ReferenceIdeal.Host.opsArgsort, Cert.ReferenceIdeal.Host.opsSeg, Cert.ReferenceIdeal.Host.opsTokenOf, Cert.ReferenceIdeal.Host.opsRows, Cert.ReferenceIdeal.Host.opsClip, Cert.ReferenceIdeal.Host.opsCounts, Cert.ReferenceIdeal.Host.opsCumsum, Cert.ReferenceIdeal.Host.opsSlot]

end Cert.HostAgree

end
-- ==== Proof.HostAgreeHeadA.lean ====
import proofs.«122034_j37752762532030_1_alg».proof.Proof.HostAgreeDefs

/-!
  From contents that agree on the expert ids, the two dispatch heads (the same operations, each program over its own buffers) leave equal sort permutations, expert ids per sorted row and slots: each side's fold is read back to its composed term, and the two terms are the same term.
-/

noncomputable section

namespace Cert.HostAgree

open Idealize.ShloMosaic Idealize.ShloMosaic.TcCoe Idealize.SL.Sem Idealize.ShloMosaic.StableHlo

variable {F : FTy → Type} [FloatOps F]

set_option maxHeartbeats 4000000 in
/-- The two dispatch heads leave the same sort permutation. -/
theorem head_sortIdx (VK : Valuation Cert.KernelIdeal.τ Cert.KernelIdeal.sig (Elt F)) (VR : Valuation Cert.ReferenceIdeal.τ Cert.ReferenceIdeal.sig (Elt F))
    (h2 : VR (Proc.devRef .tc Cert.ReferenceIdeal.main_arg2) = VK (Proc.devRef .tc Cert.KernelIdeal.main_arg2)) :
    StableHlo.after (headR (F := F)) VR (Proc.devRef .tc Cert.ReferenceIdeal.main_v1)
      = StableHlo.after (headK (F := F)) VK (Proc.devRef .tc Cert.KernelIdeal.main_v1) := by
  simp only [headK, headR, Cert.ReferenceIdeal.Host.opsFlat, Cert.ReferenceIdeal.Host.opsArgsort, Cert.ReferenceIdeal.Host.opsSeg, Cert.ReferenceIdeal.Host.opsTokenOf, Cert.ReferenceIdeal.Host.opsRows, Cert.ReferenceIdeal.Host.opsClip, Cert.ReferenceIdeal.Host.opsCounts, Cert.ReferenceIdeal.Host.opsCumsum, Cert.ReferenceIdeal.Host.opsSlot,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.main_part0_ops8,
    List.flatten_cons, List.flatten_nil, List.append_nil, List.cons_append, List.nil_append]
  after_results_simp
  rw [h2]
  rfl

set_option maxHeartbeats 4000000 in
/-- The two dispatch heads leave the same expert id per sorted row. -/
theorem head_seg (VK : Valuation Cert.KernelIdeal.τ Cert.KernelIdeal.sig (Elt F)) (VR : Valuation Cert.ReferenceIdeal.τ Cert.ReferenceIdeal.sig (Elt F))
    (h2 : VR (Proc.devRef .tc Cert.ReferenceIdeal.main_arg2) = VK (Proc.devRef .tc Cert.KernelIdeal.main_arg2)) :
    StableHlo.after (headR (F := F)) VR (Proc.devRef .tc Cert.ReferenceIdeal.main_v8)
      = StableHlo.after (headK (F := F)) VK (Proc.devRef .tc Cert.KernelIdeal.main_v8) := by
  simp only [headK, headR, Cert.ReferenceIdeal.Host.opsFlat, Cert.ReferenceIdeal.Host.opsArgsort, Cert.ReferenceIdeal.Host.opsSeg, Cert.ReferenceIdeal.Host.opsTokenOf, Cert.ReferenceIdeal.Host.opsRows, Cert.ReferenceIdeal.Host.opsClip, Cert.ReferenceIdeal.Host.opsCounts, Cert.ReferenceIdeal.Host.opsCumsum, Cert.ReferenceIdeal.Host.opsSlot,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.main_part0_ops8,
    List.flatten_cons, List.flatten_nil, List.append_nil, List.cons_append, List.nil_append]
  after_results_simp
  rw [h2]
  rfl

set_option maxHeartbeats 4000000 in
/-- The two dispatch heads leave the same slot per sorted row. -/
theorem head_slot (VK : Valuation Cert.KernelIdeal.τ Cert.KernelIdeal.sig (Elt F)) (VR : Valuation Cert.ReferenceIdeal.τ Cert.ReferenceIdeal.sig (Elt F))
    (h2 : VR (Proc.devRef .tc Cert.ReferenceIdeal.main_arg2) = VK (Proc.devRef .tc Cert.KernelIdeal.main_arg2)) :
    StableHlo.after (headR (F := F)) VR (Proc.devRef .tc Cert.ReferenceIdeal.main_v37)
      = StableHlo.after (headK (F := F)) VK (Proc.devRef .tc Cert.KernelIdeal.main_v37) := by
  simp only [headK, headR, Cert.ReferenceIdeal.Host.opsFlat, Cert.ReferenceIdeal.Host.opsArgsort, Cert.ReferenceIdeal.Host.opsSeg, Cert.ReferenceIdeal.Host.opsTokenOf, Cert.ReferenceIdeal.Host.opsRows, Cert.ReferenceIdeal.Host.opsClip, Cert.ReferenceIdeal.Host.opsCounts, Cert.ReferenceIdeal.Host.opsCumsum, Cert.ReferenceIdeal.Host.opsSlot,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.main_part0_ops8,
    List.flatten_cons, List.flatten_nil, List.append_nil, List.cons_append, List.nil_append]
  after_results_simp
  rw [h2]
  rfl

end Cert.HostAgree

end
-- ==== Proof.HostAgreeHeadB.lean ====
import proofs.«122034_j37752762532030_1_alg».proof.Proof.HostAgreeDefs

/-!
  From contents that agree on the expert ids and the hidden rows, the two dispatch heads leave equal wrapped expert indices, equal gathered rows, and the same zero buffer and zero word.
-/

noncomputable section

namespace Cert.HostAgree

open Idealize.ShloMosaic Idealize.ShloMosaic.TcCoe Idealize.SL.Sem Idealize.ShloMosaic.StableHlo

variable {F : FTy → Type} [FloatOps F]

set_option maxHeartbeats 4000000 in
/-- The two dispatch heads leave the same wrapped expert index per sorted row. -/
theorem head_segWrapped (VK : Valuation Cert.KernelIdeal.τ Cert.KernelIdeal.sig (Elt F)) (VR : Valuation Cert.ReferenceIdeal.τ Cert.ReferenceIdeal.sig (Elt F))
    (h2 : VR (Proc.devRef .tc Cert.ReferenceIdeal.main_arg2) = VK (Proc.devRef .tc Cert.KernelIdeal.main_arg2)) :
    StableHlo.after (headR (F := F)) VR (Proc.devRef .tc Cert.ReferenceIdeal.main_v43)
      = StableHlo.after (headK (F := F)) VK (Proc.devRef .tc Cert.KernelIdeal.main_v43) := by
  simp only [headK, headR, Cert.ReferenceIdeal.Host.opsFlat, Cert.ReferenceIdeal.Host.opsArgsort, Cert.ReferenceIdeal.Host.opsSeg, Cert.ReferenceIdeal.Host.opsTokenOf, Cert.ReferenceIdeal.Host.opsRows, Cert.ReferenceIdeal.Host.opsClip, Cert.ReferenceIdeal.Host.opsCounts, Cert.ReferenceIdeal.Host.opsCumsum, Cert.ReferenceIdeal.Host.opsSlot,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.main_part0_ops8,
    List.flatten_cons, List.flatten_nil, List.append_nil, List.cons_append, List.nil_append]
  after_results_simp
  rw [h2]
  rfl

set_option maxHeartbeats 4000000 in
/-- The two dispatch heads leave the same gathered hidden rows. -/
theorem head_rows (VK : Valuation Cert.KernelIdeal.τ Cert.KernelIdeal.sig (Elt F)) (VR : Valuation Cert.ReferenceIdeal.τ Cert.ReferenceIdeal.sig (Elt F))
    (h0 : VR (Proc.devRef .tc Cert.ReferenceIdeal.main_arg0) = VK (Proc.devRef .tc Cert.KernelIdeal.main_arg0))
    (h2 : VR (Proc.devRef .tc Cert.ReferenceIdeal.main_arg2) = VK (Proc.devRef .tc Cert.KernelIdeal.main_arg2)) :
    StableHlo.after (headR (F := F)) VR (Proc.devRef .tc Cert.ReferenceIdeal.main_v16)
      = StableHlo.after (headK (F := F)) VK (Proc.devRef .tc Cert.KernelIdeal.main_v16) := by
  simp only [headK, headR, Cert.ReferenceIdeal.Host.opsFlat, Cert.ReferenceIdeal.Host.opsArgsort, Cert.ReferenceIdeal.Host.opsSeg, Cert.ReferenceIdeal.Host.opsTokenOf, Cert.ReferenceIdeal.Host.opsRows, Cert.ReferenceIdeal.Host.opsClip, Cert.ReferenceIdeal.Host.opsCounts, Cert.ReferenceIdeal.Host.opsCumsum, Cert.ReferenceIdeal.Host.opsSlot,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.main_part0_ops8,
    List.flatten_cons, List.flatten_nil, List.append_nil, List.cons_append, List.nil_append]
  after_results_simp
  rw [h0, h2]
  rfl

set_option maxHeartbeats 4000000 in
/-- The two dispatch heads leave the same zero buffer. -/
theorem head_zeroBuf (VK : Valuation Cert.KernelIdeal.τ Cert.KernelIdeal.sig (Elt F)) (VR : Valuation Cert.ReferenceIdeal.τ Cert.ReferenceIdeal.sig (Elt F))
    :
    StableHlo.after (headR (F := F)) VR (Proc.devRef .tc Cert.ReferenceIdeal.main_v38)
      = StableHlo.after (headK (F := F)) VK (Proc.devRef .tc Cert.KernelIdeal.main_v38) := by
  simp only [headK, headR, Cert.ReferenceIdeal.Host.opsFlat, Cert.ReferenceIdeal.Host.opsArgsort, Cert.ReferenceIdeal.Host.opsSeg, Cert.ReferenceIdeal.Host.opsTokenOf, Cert.ReferenceIdeal.Host.opsRows, Cert.ReferenceIdeal.Host.opsClip, Cert.ReferenceIdeal.Host.opsCounts, Cert.ReferenceIdeal.Host.opsCumsum, Cert.ReferenceIdeal.Host.opsSlot,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.main_part0_ops8,
    List.flatten_cons, List.flatten_nil, List.append_nil, List.cons_append, List.nil_append]
  after_results_simp

set_option maxHeartbeats 4000000 in
/-- The two dispatch heads leave the same zero word for the slot's sign test. -/
theorem head_zeroWord (VK : Valuation Cert.KernelIdeal.τ Cert.KernelIdeal.sig (Elt F)) (VR : Valuation Cert.ReferenceIdeal.τ Cert.ReferenceIdeal.sig (Elt F))
    :
    StableHlo.after (headR (F := F)) VR (Proc.devRef .tc Cert.ReferenceIdeal.main_c_13)
      = StableHlo.after (headK (F := F)) VK (Proc.devRef .tc Cert.KernelIdeal.main_c_13) := by
  simp only [headK, headR, Cert.ReferenceIdeal.Host.opsFlat, Cert.ReferenceIdeal.Host.opsArgsort, Cert.ReferenceIdeal.Host.opsSeg, Cert.ReferenceIdeal.Host.opsTokenOf, Cert.ReferenceIdeal.Host.opsRows, Cert.ReferenceIdeal.Host.opsClip, Cert.ReferenceIdeal.Host.opsCounts, Cert.ReferenceIdeal.Host.opsCumsum, Cert.ReferenceIdeal.Host.opsSlot,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.main_part0_ops8,
    List.flatten_cons, List.flatten_nil, List.append_nil, List.cons_append, List.nil_append]
  after_results_simp

end Cert.HostAgree

end
-- ==== Proof.HostAgree.lean ====
import proofs.«122034_j37752762532030_1_alg».proof.Proof.HostAgreeDefs
import proofs.«122034_j37752762532030_1_alg».proof.Proof.HostAgreeHeadA
import proofs.«122034_j37752762532030_1_alg».proof.Proof.HostAgreeHeadB
import Idealize.ShloMosaic.Lib.Pipeline.Frame

/-!
  The kernel's program and the reference run the same dispatch before the grouped products: operation for operation the same functions of the same operands, each program over its own buffers. Each
  dispatch is its head followed by its last ten operations, which wrap the slot index, pair it with the expert index and
  scatter the gathered rows into the zero buffer. From contents that agree on the expert ids and the hidden rows the two
  dispatches therefore leave equal sort permutations, expert ids per sorted row, slots and dense buffers.
-/

noncomputable section

namespace Cert.HostAgree

open Idealize.ShloMosaic Idealize.ShloMosaic.TcCoe Idealize.SL.Sem Idealize.ShloMosaic.StableHlo

variable {F : FTy → Type} [FloatOps F]

/-- The kernel program's host operations before its region: its dispatch. -/
abbrev preK : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]

/-- The kernel program's dispatch is its head, then its last ten operations. -/
theorem preK_eq : (preK (F := F)) = headK ++ Cert.KernelIdeal.Gen.main_part1_ops0 := rfl
/-- So is the reference's. -/
theorem dispatchR_eq : (Cert.ReferenceIdeal.Host.dispatch (F := F)).flatten = headR ++ Cert.ReferenceIdeal.Host.opsDispatch := rfl

set_option maxHeartbeats 1000000 in
/-- From contents that agree on the slot, the wrapped expert index, the gathered rows, the zero buffer and the zero
    word, the last ten operations of the two dispatches leave the same dense buffer. -/
theorem last_buf (WK : Valuation Cert.KernelIdeal.τ Cert.KernelIdeal.sig (Elt F)) (WR : Valuation Cert.ReferenceIdeal.τ Cert.ReferenceIdeal.sig (Elt F))
    (hzero : WR (Proc.devRef .tc Cert.ReferenceIdeal.main_c_13) = WK (Proc.devRef .tc Cert.KernelIdeal.main_c_13))
    (hslot : WR (Proc.devRef .tc Cert.ReferenceIdeal.main_v37) = WK (Proc.devRef .tc Cert.KernelIdeal.main_v37))
    (hseg : WR (Proc.devRef .tc Cert.ReferenceIdeal.main_v43) = WK (Proc.devRef .tc Cert.KernelIdeal.main_v43))
    (hbuf : WR (Proc.devRef .tc Cert.ReferenceIdeal.main_v38) = WK (Proc.devRef .tc Cert.KernelIdeal.main_v38))
    (hrows : WR (Proc.devRef .tc Cert.ReferenceIdeal.main_v16) = WK (Proc.devRef .tc Cert.KernelIdeal.main_v16)) :
    StableHlo.after (Cert.ReferenceIdeal.Host.opsDispatch (F := F)) WR (Proc.devRef .tc Cert.ReferenceIdeal.main_v52)
      = StableHlo.after (Cert.KernelIdeal.Gen.main_part1_ops0 (F := F)) WK (Proc.devRef .tc Cert.KernelIdeal.main_v52) := by
  simp only [Cert.ReferenceIdeal.Host.opsDispatch, Cert.KernelIdeal.Gen.main_part1_ops0]
  after_results
  rw [hzero, hslot, hseg, hbuf, hrows]
  rfl

/-! The last ten operations write none of the sort permutation, the expert id per sorted row, the slot. -/
theorem lastR_keeps_v1 (W : Valuation Cert.ReferenceIdeal.τ Cert.ReferenceIdeal.sig (Elt F)) :
    StableHlo.after (Cert.ReferenceIdeal.Host.opsDispatch (F := F)) W (Proc.devRef .tc Cert.ReferenceIdeal.main_v1) = W (Proc.devRef .tc Cert.ReferenceIdeal.main_v1) := by
  simp only [Cert.ReferenceIdeal.Host.opsDispatch]
  after_results_simp
theorem lastR_keeps_v8 (W : Valuation Cert.ReferenceIdeal.τ Cert.ReferenceIdeal.sig (Elt F)) :
    StableHlo.after (Cert.ReferenceIdeal.Host.opsDispatch (F := F)) W (Proc.devRef .tc Cert.ReferenceIdeal.main_v8) = W (Proc.devRef .tc Cert.ReferenceIdeal.main_v8) := by
  simp only [Cert.ReferenceIdeal.Host.opsDispatch]
  after_results_simp
theorem lastR_keeps_v37 (W : Valuation Cert.ReferenceIdeal.τ Cert.ReferenceIdeal.sig (Elt F)) :
    StableHlo.after (Cert.ReferenceIdeal.Host.opsDispatch (F := F)) W (Proc.devRef .tc Cert.ReferenceIdeal.main_v37) = W (Proc.devRef .tc Cert.ReferenceIdeal.main_v37) := by
  simp only [Cert.ReferenceIdeal.Host.opsDispatch]
  after_results_simp
theorem lastK_keeps_v1 (W : Valuation Cert.KernelIdeal.τ Cert.KernelIdeal.sig (Elt F)) :
    StableHlo.after (Cert.KernelIdeal.Gen.main_part1_ops0 (F := F)) W (Proc.devRef .tc Cert.KernelIdeal.main_v1) = W (Proc.devRef .tc Cert.KernelIdeal.main_v1) := by
  simp only [Cert.KernelIdeal.Gen.main_part1_ops0]
  after_results_simp
theorem lastK_keeps_v8 (W : Valuation Cert.KernelIdeal.τ Cert.KernelIdeal.sig (Elt F)) :
    StableHlo.after (Cert.KernelIdeal.Gen.main_part1_ops0 (F := F)) W (Proc.devRef .tc Cert.KernelIdeal.main_v8) = W (Proc.devRef .tc Cert.KernelIdeal.main_v8) := by
  simp only [Cert.KernelIdeal.Gen.main_part1_ops0]
  after_results_simp
theorem lastK_keeps_v37 (W : Valuation Cert.KernelIdeal.τ Cert.KernelIdeal.sig (Elt F)) :
    StableHlo.after (Cert.KernelIdeal.Gen.main_part1_ops0 (F := F)) W (Proc.devRef .tc Cert.KernelIdeal.main_v37) = W (Proc.devRef .tc Cert.KernelIdeal.main_v37) := by
  simp only [Cert.KernelIdeal.Gen.main_part1_ops0]
  after_results_simp

/-- The two dispatches leave the same sort permutation. -/
theorem sortIdx_agree (VK : Valuation Cert.KernelIdeal.τ Cert.KernelIdeal.sig (Elt F)) (VR : Valuation Cert.ReferenceIdeal.τ Cert.ReferenceIdeal.sig (Elt F))
    (h2 : VR (Proc.devRef .tc Cert.ReferenceIdeal.main_arg2) = VK (Proc.devRef .tc Cert.KernelIdeal.main_arg2)) :
    StableHlo.after (Cert.ReferenceIdeal.Host.dispatch (F := F)).flatten VR (Proc.devRef .tc Cert.ReferenceIdeal.main_v1)
      = StableHlo.after (preK (F := F)) VK (Proc.devRef .tc Cert.KernelIdeal.main_v1) := by
  rw [dispatchR_eq, preK_eq, StableHlo.after_append, StableHlo.after_append, lastR_keeps_v1, lastK_keeps_v1]
  exact head_sortIdx VK VR h2

/-- The two dispatches leave the same expert id per sorted row. -/
theorem seg_agree (VK : Valuation Cert.KernelIdeal.τ Cert.KernelIdeal.sig (Elt F)) (VR : Valuation Cert.ReferenceIdeal.τ Cert.ReferenceIdeal.sig (Elt F))
    (h2 : VR (Proc.devRef .tc Cert.ReferenceIdeal.main_arg2) = VK (Proc.devRef .tc Cert.KernelIdeal.main_arg2)) :
    StableHlo.after (Cert.ReferenceIdeal.Host.dispatch (F := F)).flatten VR (Proc.devRef .tc Cert.ReferenceIdeal.main_v8)
      = StableHlo.after (preK (F := F)) VK (Proc.devRef .tc Cert.KernelIdeal.main_v8) := by
  rw [dispatchR_eq, preK_eq, StableHlo.after_append, StableHlo.after_append, lastR_keeps_v8, lastK_keeps_v8]
  exact head_seg VK VR h2

/-- The two dispatches leave the same slot per sorted row. -/
theorem slot_agree (VK : Valuation Cert.KernelIdeal.τ Cert.KernelIdeal.sig (Elt F)) (VR : Valuation Cert.ReferenceIdeal.τ Cert.ReferenceIdeal.sig (Elt F))
    (h2 : VR (Proc.devRef .tc Cert.ReferenceIdeal.main_arg2) = VK (Proc.devRef .tc Cert.KernelIdeal.main_arg2)) :
    StableHlo.after (Cert.ReferenceIdeal.Host.dispatch (F := F)).flatten VR (Proc.devRef .tc Cert.ReferenceIdeal.main_v37)
      = StableHlo.after (preK (F := F)) VK (Proc.devRef .tc Cert.KernelIdeal.main_v37) := by
  rw [dispatchR_eq, preK_eq, StableHlo.after_append, StableHlo.after_append, lastR_keeps_v37, lastK_keeps_v37]
  exact head_slot VK VR h2

/-- The two dispatches leave the same dense per-expert buffer. -/
theorem buf_agree (VK : Valuation Cert.KernelIdeal.τ Cert.KernelIdeal.sig (Elt F)) (VR : Valuation Cert.ReferenceIdeal.τ Cert.ReferenceIdeal.sig (Elt F))
    (h0 : VR (Proc.devRef .tc Cert.ReferenceIdeal.main_arg0) = VK (Proc.devRef .tc Cert.KernelIdeal.main_arg0))
    (h2 : VR (Proc.devRef .tc Cert.ReferenceIdeal.main_arg2) = VK (Proc.devRef .tc Cert.KernelIdeal.main_arg2)) :
    StableHlo.after (Cert.ReferenceIdeal.Host.dispatch (F := F)).flatten VR (Proc.devRef .tc Cert.ReferenceIdeal.main_v52)
      = StableHlo.after (preK (F := F)) VK (Proc.devRef .tc Cert.KernelIdeal.main_v52) := by
  rw [dispatchR_eq, preK_eq, StableHlo.after_append, StableHlo.after_append]
  exact last_buf _ _ (head_zeroWord VK VR) (head_slot VK VR h2) (head_segWrapped VK VR h2) (head_zeroBuf VK VR) (head_rows VK VR h0 h2)

end Cert.HostAgree

end
-- ==== Proof.CombineAgree.lean ====
import proofs.«122034_j37752762532030_1_alg».proof.Proof.Gen.KernelIdeal.Launch
import proofs.«122034_j37752762532030_1_alg».proof.Proof.ReferenceLine
import Idealize.ShloMosaic.Lib.Pipeline.Frame

/-!
  The combine, the same 29 operations in both programs, each over its own buffers: its first seventeen wrap the expert
  index and the slot of each sorted row and pair them; its last twelve gather the products' result rows at those pairs,
  wrap the sort permutation and scatter the rows to the places they had before the sort. From contents that agree on the
  products' result, the expert ids and slots per sorted row and the sort permutation, the two combines leave equal
  results.
-/

noncomputable section

namespace Cert.KernelIdeal.Combine

open Cert.KernelIdeal Cert.KernelIdeal.Gen Idealize.ShloMosaic Idealize.ShloMosaic.TcCoe Idealize.SL.Sem

variable {F : FTy → Type} [FloatOps F]

/-- The kernel program's combine up to the (expert, slot) pairs. -/
abbrev pairing : List (HloOp τ sig (Elt F)) :=
  [ StableHlo.nullary main_c_15 (constantI S_ 32 0#32),
    StableHlo.unary main_c_15 main_v54 (broadcastInDim S8192 ![] bcast_S_S8192 : (⟨S_, .i32⟩ : BufTy).Contents (Elt F) → (⟨S8192, .i32⟩ : BufTy).Contents (Elt F)),
    StableHlo.binary main_v8 main_v54 main_v55 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 64#32),
    StableHlo.unary main_c_16 main_v56 (broadcastInDim S8192 ![] bcast_S_S8192 : (⟨S_, .i32⟩ : BufTy).Contents (Elt F) → (⟨S8192, .i32⟩ : BufTy).Contents (Elt F)),
    StableHlo.binary main_v8 main_v56 main_v57 (addi : (⟨S8192, .i32⟩ : BufTy).Contents (Elt F) → (⟨S8192, .i32⟩ : BufTy).Contents (Elt F) → (⟨S8192, .i32⟩ : BufTy).Contents (Elt F)),
    StableHlo.ternary main_v55 main_v57 main_v8 main_v58 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_17 (constantI S_ 32 0#32),
    StableHlo.unary main_c_17 main_v59 (broadcastInDim S8192 ![] bcast_S_S8192 : (⟨S_, .i32⟩ : BufTy).Contents (Elt F) → (⟨S8192, .i32⟩ : BufTy).Contents (Elt F)),
    StableHlo.binary main_v37 main_v59 main_v60 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 256#32),
    StableHlo.unary main_c_18 main_v61 (broadcastInDim S8192 ![] bcast_S_S8192 : (⟨S_, .i32⟩ : BufTy).Contents (Elt F) → (⟨S8192, .i32⟩ : BufTy).Contents (Elt F)),
    StableHlo.binary main_v37 main_v61 main_v62 (addi : (⟨S8192, .i32⟩ : BufTy).Contents (Elt F) → (⟨S8192, .i32⟩ : BufTy).Contents (Elt F) → (⟨S8192, .i32⟩ : BufTy).Contents (Elt F)),
    StableHlo.ternary main_v60 main_v62 main_v37 main_v63 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v58 main_v64 (broadcastInDim S8192x1 ![0] bcast_S8192_S8192x1_0 : (⟨S8192, .i32⟩ : BufTy).Contents (Elt F) → (⟨S8192x1, .i32⟩ : BufTy).Contents (Elt F)),
    StableHlo.unary main_v63 main_v65 (broadcastInDim S8192x1 ![0] bcast_S8192_S8192x1_0 : (⟨S8192, .i32⟩ : BufTy).Contents (Elt F) → (⟨S8192x1, .i32⟩ : BufTy).Contents (Elt F)),
    StableHlo.binary main_v64 main_v65 main_v66 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) ]
/-- The rest of it: the gather at the pairs and the scatter back. -/
abbrev unsort : List (HloOp τ sig (Elt F)) :=
  [ StableHlo.binary main_v53 main_v66 main_v67 ((fun x i => Host.gather gather_S64x256x1024_S8192x2_S8192x1024_1_01_n_n_01_1_111024 x i) : (⟨S64x256x1024, .f32⟩ : BufTy).Contents (Elt F) → (⟨S8192x2, .i32⟩ : BufTy).Contents (Elt F) → (⟨S8192x1024, .f32⟩ : BufTy).Contents (Elt F)),
    StableHlo.nullary main_cst_19 (constant S_ .f32 0x00000000#32),
    StableHlo.unary main_cst_19 main_v68 (broadcastInDim S8192x1024 ![] bcast_S_S8192x1024 : (⟨S_, .f32⟩ : BufTy).Contents (Elt F) → (⟨S8192x1024, .f32⟩ : BufTy).Contents (Elt F)),
    StableHlo.nullary main_c_20 (constantI S_ 32 0#32),
    StableHlo.unary main_c_20 main_v69 (broadcastInDim S8192 ![] bcast_S_S8192 : (⟨S_, .i32⟩ : BufTy).Contents (Elt F) → (⟨S8192, .i32⟩ : BufTy).Contents (Elt F)),
    StableHlo.binary main_v1 main_v69 main_v70 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 8192#32),
    StableHlo.unary main_c_21 main_v71 (broadcastInDim S8192 ![] bcast_S_S8192 : (⟨S_, .i32⟩ : BufTy).Contents (Elt F) → (⟨S8192, .i32⟩ : BufTy).Contents (Elt F)),
    StableHlo.binary main_v1 main_v71 main_v72 (addi : (⟨S8192, .i32⟩ : BufTy).Contents (Elt F) → (⟨S8192, .i32⟩ : BufTy).Contents (Elt F) → (⟨S8192, .i32⟩ : BufTy).Contents (Elt F)),
    StableHlo.ternary main_v70 main_v72 main_v1 main_v73 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v73 main_v74 (broadcastInDim S8192x1 ![0] bcast_S8192_S8192x1_0 : (⟨S8192, .i32⟩ : BufTy).Contents (Elt F) → (⟨S8192x1, .i32⟩ : BufTy).Contents (Elt F)),
    StableHlo.ternary main_v68 main_v74 main_v67 main_v75 ((fun x i u => Host.scatter scatter_S8192x1024_S8192x1_S8192x1024_1_0_0_1 (fun _ b => b) x i u) : (⟨S8192x1024, .f32⟩ : BufTy).Contents (Elt F) → (⟨S8192x1, .i32⟩ : BufTy).Contents (Elt F) → (⟨S8192x1024, .f32⟩ : BufTy).Contents (Elt F) → (⟨S8192x1024, .f32⟩ : BufTy).Contents (Elt F)) ]

theorem combine_eq : (hostOps1 (F := F)) = pairing ++ unsort := rfl

end Cert.KernelIdeal.Combine

namespace Cert.ReferenceIdeal.Combine

open Cert.ReferenceIdeal Cert.ReferenceIdeal.Gen Cert.ReferenceIdeal.Host Idealize.ShloMosaic Idealize.ShloMosaic.TcCoe Idealize.SL.Sem

variable {F : FTy → Type} [FloatOps F]

/-- The reference's combine up to the (expert, slot) pairs. -/
abbrev pairing : List (HloOp τ sig (Elt F)) :=
  [ StableHlo.nullary main_c_15 (constantI S_ 32 0#32),
    StableHlo.unary main_c_15 main_v59 (broadcastInDim S8192 ![] bcast_S_S8192 : (⟨S_, .i32⟩ : BufTy).Contents (Elt F) → (⟨S8192, .i32⟩ : BufTy).Contents (Elt F)),
    StableHlo.binary main_v8 main_v59 main_v60 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 64#32),
    StableHlo.unary main_c_16 main_v61 (broadcastInDim S8192 ![] bcast_S_S8192 : (⟨S_, .i32⟩ : BufTy).Contents (Elt F) → (⟨S8192, .i32⟩ : BufTy).Contents (Elt F)),
    StableHlo.binary main_v8 main_v61 main_v62 (addi : (⟨S8192, .i32⟩ : BufTy).Contents (Elt F) → (⟨S8192, .i32⟩ : BufTy).Contents (Elt F) → (⟨S8192, .i32⟩ : BufTy).Contents (Elt F)),
    StableHlo.ternary main_v60 main_v62 main_v8 main_v63 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_17 (constantI S_ 32 0#32),
    StableHlo.unary main_c_17 main_v64 (broadcastInDim S8192 ![] bcast_S_S8192 : (⟨S_, .i32⟩ : BufTy).Contents (Elt F) → (⟨S8192, .i32⟩ : BufTy).Contents (Elt F)),
    StableHlo.binary main_v37 main_v64 main_v65 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 256#32),
    StableHlo.unary main_c_18 main_v66 (broadcastInDim S8192 ![] bcast_S_S8192 : (⟨S_, .i32⟩ : BufTy).Contents (Elt F) → (⟨S8192, .i32⟩ : BufTy).Contents (Elt F)),
    StableHlo.binary main_v37 main_v66 main_v67 (addi : (⟨S8192, .i32⟩ : BufTy).Contents (Elt F) → (⟨S8192, .i32⟩ : BufTy).Contents (Elt F) → (⟨S8192, .i32⟩ : BufTy).Contents (Elt F)),
    StableHlo.ternary main_v65 main_v67 main_v37 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v63 main_v69 (broadcastInDim S8192x1 ![0] bcast_S8192_S8192x1_0 : (⟨S8192, .i32⟩ : BufTy).Contents (Elt F) → (⟨S8192x1, .i32⟩ : BufTy).Contents (Elt F)),
    StableHlo.unary main_v68 main_v70 (broadcastInDim S8192x1 ![0] bcast_S8192_S8192x1_0 : (⟨S8192, .i32⟩ : BufTy).Contents (Elt F) → (⟨S8192x1, .i32⟩ : BufTy).Contents (Elt F)),
    StableHlo.binary main_v69 main_v70 main_v71 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) ]
/-- The rest of it: the gather at the pairs and the scatter back. -/
abbrev unsort : List (HloOp τ sig (Elt F)) :=
  [ StableHlo.binary main_v58 main_v71 main_v72 ((fun x i => Host.gather gather_S64x256x1024_S8192x2_S8192x1024_1_01_n_n_01_1_111024 x i) : (⟨S64x256x1024, .f32⟩ : BufTy).Contents (Elt F) → (⟨S8192x2, .i32⟩ : BufTy).Contents (Elt F) → (⟨S8192x1024, .f32⟩ : BufTy).Contents (Elt F)),
    StableHlo.nullary main_cst_19 (constant S_ .f32 0x00000000#32),
    StableHlo.unary main_cst_19 main_v73 (broadcastInDim S8192x1024 ![] bcast_S_S8192x1024 : (⟨S_, .f32⟩ : BufTy).Contents (Elt F) → (⟨S8192x1024, .f32⟩ : BufTy).Contents (Elt F)),
    StableHlo.nullary main_c_20 (constantI S_ 32 0#32),
    StableHlo.unary main_c_20 main_v74 (broadcastInDim S8192 ![] bcast_S_S8192 : (⟨S_, .i32⟩ : BufTy).Contents (Elt F) → (⟨S8192, .i32⟩ : BufTy).Contents (Elt F)),
    StableHlo.binary main_v1 main_v74 main_v75 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 8192#32),
    StableHlo.unary main_c_21 main_v76 (broadcastInDim S8192 ![] bcast_S_S8192 : (⟨S_, .i32⟩ : BufTy).Contents (Elt F) → (⟨S8192, .i32⟩ : BufTy).Contents (Elt F)),
    StableHlo.binary main_v1 main_v76 main_v77 (addi : (⟨S8192, .i32⟩ : BufTy).Contents (Elt F) → (⟨S8192, .i32⟩ : BufTy).Contents (Elt F) → (⟨S8192, .i32⟩ : BufTy).Contents (Elt F)),
    StableHlo.ternary main_v75 main_v77 main_v1 main_v78 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v78 main_v79 (broadcastInDim S8192x1 ![0] bcast_S8192_S8192x1_0 : (⟨S8192, .i32⟩ : BufTy).Contents (Elt F) → (⟨S8192x1, .i32⟩ : BufTy).Contents (Elt F)),
    StableHlo.ternary main_v73 main_v79 main_v72 main_v80 ((fun x i u => Host.scatter scatter_S8192x1024_S8192x1_S8192x1024_1_0_0_1 (fun _ b => b) x i u) : (⟨S8192x1024, .f32⟩ : BufTy).Contents (Elt F) → (⟨S8192x1, .i32⟩ : BufTy).Contents (Elt F) → (⟨S8192x1024, .f32⟩ : BufTy).Contents (Elt F) → (⟨S8192x1024, .f32⟩ : BufTy).Contents (Elt F)) ]

theorem combine_eq : (opsCombine (F := F)) = pairing ++ unsort := rfl

end Cert.ReferenceIdeal.Combine

namespace Cert.HostAgree

open Idealize.ShloMosaic Idealize.ShloMosaic.TcCoe Idealize.SL.Sem Idealize.ShloMosaic.StableHlo

variable {F : FTy → Type} [FloatOps F]

set_option maxHeartbeats 2000000 in
/-- From contents that agree on the expert id and the slot per sorted row, the two pairings leave the same pairs. -/
theorem pairs_agree (WK : Valuation Cert.KernelIdeal.τ Cert.KernelIdeal.sig (Elt F)) (WR : Valuation Cert.ReferenceIdeal.τ Cert.ReferenceIdeal.sig (Elt F))
    (hseg : WR (Proc.devRef .tc Cert.ReferenceIdeal.main_v8) = WK (Proc.devRef .tc Cert.KernelIdeal.main_v8))
    (hslot : WR (Proc.devRef .tc Cert.ReferenceIdeal.main_v37) = WK (Proc.devRef .tc Cert.KernelIdeal.main_v37)) :
    StableHlo.after (Cert.ReferenceIdeal.Combine.pairing (F := F)) WR (Proc.devRef .tc Cert.ReferenceIdeal.main_v71)
      = StableHlo.after (Cert.KernelIdeal.Combine.pairing (F := F)) WK (Proc.devRef .tc Cert.KernelIdeal.main_v66) := by
  simp only [Cert.ReferenceIdeal.Combine.pairing, Cert.KernelIdeal.Combine.pairing]
  after_results
  rw [hseg, hslot]

/-! The pairings write neither the products' result nor the sort permutation. -/
theorem pairingR_keeps_out (W : Valuation Cert.ReferenceIdeal.τ Cert.ReferenceIdeal.sig (Elt F)) :
    StableHlo.after (Cert.ReferenceIdeal.Combine.pairing (F := F)) W (Proc.devRef .tc Cert.ReferenceIdeal.main_v58) = W (Proc.devRef .tc Cert.ReferenceIdeal.main_v58) := by
  simp only [Cert.ReferenceIdeal.Combine.pairing]
  after_results_simp
theorem pairingR_keeps_sortIdx (W : Valuation Cert.ReferenceIdeal.τ Cert.ReferenceIdeal.sig (Elt F)) :
    StableHlo.after (Cert.ReferenceIdeal.Combine.pairing (F := F)) W (Proc.devRef .tc Cert.ReferenceIdeal.main_v1) = W (Proc.devRef .tc Cert.ReferenceIdeal.main_v1) := by
  simp only [Cert.ReferenceIdeal.Combine.pairing]
  after_results_simp
theorem pairingK_keeps_out (W : Valuation Cert.KernelIdeal.τ Cert.KernelIdeal.sig (Elt F)) :
    StableHlo.after (Cert.KernelIdeal.Combine.pairing (F := F)) W (Proc.devRef .tc Cert.KernelIdeal.main_v53) = W (Proc.devRef .tc Cert.KernelIdeal.main_v53) := by
  simp only [Cert.KernelIdeal.Combine.pairing]
  after_results_simp
theorem pairingK_keeps_sortIdx (W : Valuation Cert.KernelIdeal.τ Cert.KernelIdeal.sig (Elt F)) :
    StableHlo.after (Cert.KernelIdeal.Combine.pairing (F := F)) W (Proc.devRef .tc Cert.KernelIdeal.main_v1) = W (Proc.devRef .tc Cert.KernelIdeal.main_v1) := by
  simp only [Cert.KernelIdeal.Combine.pairing]
  after_results_simp

set_option maxHeartbeats 2000000 in
/-- From contents that agree on the products' result, the pairs and the sort permutation, the gather at the pairs and
    the scatter back leave the same result. -/
theorem unsort_agree (WK : Valuation Cert.KernelIdeal.τ Cert.KernelIdeal.sig (Elt F)) (WR : Valuation Cert.ReferenceIdeal.τ Cert.ReferenceIdeal.sig (Elt F))
    (hout : WR (Proc.devRef .tc Cert.ReferenceIdeal.main_v58) = WK (Proc.devRef .tc Cert.KernelIdeal.main_v53))
    (hpairs : WR (Proc.devRef .tc Cert.ReferenceIdeal.main_v71) = WK (Proc.devRef .tc Cert.KernelIdeal.main_v66))
    (hsort : WR (Proc.devRef .tc Cert.ReferenceIdeal.main_v1) = WK (Proc.devRef .tc Cert.KernelIdeal.main_v1)) :
    StableHlo.after (Cert.ReferenceIdeal.Combine.unsort (F := F)) WR (Proc.devRef .tc Cert.ReferenceIdeal.main_v80)
      = StableHlo.after (Cert.KernelIdeal.Combine.unsort (F := F)) WK (Proc.devRef .tc Cert.KernelIdeal.main_v75) := by
  simp only [Cert.ReferenceIdeal.Combine.unsort, Cert.KernelIdeal.Combine.unsort]
  after_results_simp
  rw [hout, hpairs, hsort]
  rfl

/-- From contents that agree on the products' result, the expert ids and slots per sorted row and the sort
    permutation, the two combines leave the same result. -/
theorem combine_agree (WK : Valuation Cert.KernelIdeal.τ Cert.KernelIdeal.sig (Elt F)) (WR : Valuation Cert.ReferenceIdeal.τ Cert.ReferenceIdeal.sig (Elt F))
    (hout : WR (Proc.devRef .tc Cert.ReferenceIdeal.main_v58) = WK (Proc.devRef .tc Cert.KernelIdeal.main_v53))
    (hseg : WR (Proc.devRef .tc Cert.ReferenceIdeal.main_v8) = WK (Proc.devRef .tc Cert.KernelIdeal.main_v8))
    (hslot : WR (Proc.devRef .tc Cert.ReferenceIdeal.main_v37) = WK (Proc.devRef .tc Cert.KernelIdeal.main_v37))
    (hsort : WR (Proc.devRef .tc Cert.ReferenceIdeal.main_v1) = WK (Proc.devRef .tc Cert.KernelIdeal.main_v1)) :
    StableHlo.after (Cert.ReferenceIdeal.Host.opsCombine (F := F)) WR (Proc.devRef .tc Cert.ReferenceIdeal.main_v80)
      = StableHlo.after (Cert.KernelIdeal.Gen.hostOps1 (F := F)) WK (Proc.devRef .tc Cert.KernelIdeal.main_v75) := by
  rw [Cert.ReferenceIdeal.Combine.combine_eq, Cert.KernelIdeal.Combine.combine_eq, StableHlo.after_append, StableHlo.after_append]
  exact unsort_agree _ _ ((pairingR_keeps_out WR).trans (hout.trans (pairingK_keeps_out WK).symm))
    (pairs_agree WK WR hseg hslot)
    ((pairingR_keeps_sortIdx WR).trans (hsort.trans (pairingK_keeps_sortIdx WK).symm))

end Cert.HostAgree

end
-- ==== Proof.lean ====
import proofs.«122034_j37752762532030_1_alg».proof.Defs
import proofs.«122034_j37752762532030_1_alg».proof.Proof.Gen.Kernel
import proofs.«122034_j37752762532030_1_alg».proof.Proof.Gen.Kernel.Frame
import proofs.«122034_j37752762532030_1_alg».proof.Proof.Gen.KernelIdeal
import proofs.«122034_j37752762532030_1_alg».proof.Proof.Gen.KernelIdeal.Frame
import proofs.«122034_j37752762532030_1_alg».proof.Proof.Gen.ReferenceIdeal
import proofs.«122034_j37752762532030_1_alg».proof.Proof.Gen.Pre_finite_inputs
import proofs.«122034_j37752762532030_1_alg».proof.Proof.KernelRun
import proofs.«122034_j37752762532030_1_alg».proof.Proof.ReferenceLine
import proofs.«122034_j37752762532030_1_alg».proof.Proof.ReferenceKeeps
import proofs.«122034_j37752762532030_1_alg».proof.Proof.ReferenceProducts
import proofs.«122034_j37752762532030_1_alg».proof.Proof.HostAgree
import proofs.«122034_j37752762532030_1_alg».proof.Proof.CombineAgree
import Idealize.ShloMosaic.Adequacy
import Idealize.ShloMosaic.Init

/-!
  A mixture-of-experts layer: the expanded rows (token, choice) are sorted by expert, each expert's rows are laid into a
  dense buffer of 256 slots, every expert applies x ↦ ((x·w13)_gate · sigmoid((x·w13)_gate) · (x·w13)_up) · w2 to its
  rows, and the result rows are gathered back and put where they stood before the sort. The kernel's program does the
  two products per expert in one gridded region; the reference does them as two grouped products on the host. The
  dispatch before them and the combine after them are the same operations in both programs.

  At the ideal values both middles are the same function of the dense buffer and the two weights, index by index: each
  product is the plain sum over its contracted axis, the changes of float format are the identity, and the reference's
  1 / (1 + exp(−x)) is the ideal logistic function. Nothing in the equality needs the inputs finite: no law beyond the
  definition of the sums is used. The frames of the two kernel programs are the generated ones; the reference's is its
  run read back, no operation of which writes an argument. The ideal pass rewrote nothing, so `preserves` is `True`.
-/

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as launched. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Host.line_keeps_arg0 _),
      (h c Cert.ReferenceIdeal.main_arg1).trans (Cert.ReferenceIdeal.Host.line_keeps_arg1 _),
      (h c Cert.ReferenceIdeal.main_arg2).trans (Cert.ReferenceIdeal.Host.line_keeps_arg2 _),
      (h c Cert.ReferenceIdeal.main_arg3).trans (Cert.ReferenceIdeal.Host.line_keeps_arg3 _),
      (h c Cert.ReferenceIdeal.main_arg4).trans (Cert.ReferenceIdeal.Host.line_keeps_arg4 _)⟩)
    (Cert.ReferenceIdeal.Host.run (F := Ideal) m ρ)

theorem preserves : Cert.preserves_Kernel_KernelIdeal := trivial

/-- From memories that agree on the arguments the two programs end with equal results: the hidden rows and the routing
    weights as launched, the sort permutation of the shared dispatch, and the combine of equal contents. -/
theorem algebraic : Cert.algebraic_KernelIdeal_ReferenceIdeal := by
  intro m ρ m' ρ' _ hagree
  refine ⟨_, _, _, _, Cert.KernelIdeal.Result.run m ρ, ?_⟩
  refine (θ_run Cert.ReferenceIdeal.defs _ _).mono (fun r h c => ?_) (Cert.ReferenceIdeal.Host.run (F := Ideal) m' ρ')
  obtain ⟨g0, g1, g2, g3, g4⟩ := hagree c
  -- what the two dispatches leave
  have d1 := Cert.HostAgree.sortIdx_agree (F := Ideal) (fun b => m (c, b)) (StableHlo.launchContents m' c) g2
  have d8 := Cert.HostAgree.seg_agree (F := Ideal) (fun b => m (c, b)) (StableHlo.launchContents m' c) g2
  have d37 := Cert.HostAgree.slot_agree (F := Ideal) (fun b => m (c, b)) (StableHlo.launchContents m' c) g2
  have d52 := Cert.HostAgree.buf_agree (F := Ideal) (fun b => m (c, b)) (StableHlo.launchContents m' c) g0 g2
  have d3 := (Cert.ReferenceIdeal.Host.dispatch_keeps_arg3 (F := Ideal) (StableHlo.launchContents m' c)).trans g3
  have d4 := (Cert.ReferenceIdeal.Host.dispatch_keeps_arg4 (F := Ideal) (StableHlo.launchContents m' c)).trans g4
  -- what the products leave, against the contents after the kernel's region
  have p58 : StableHlo.after (Cert.ReferenceIdeal.Host.products (F := Ideal)).flatten
        (StableHlo.after (Cert.ReferenceIdeal.Host.dispatch (F := Ideal)).flatten (StableHlo.launchContents m' c)) (Proc.devRef .tc Cert.ReferenceIdeal.main_v58)
      = Cert.KernelIdeal.Result.afterRegion m c (Proc.devRef .tc Cert.KernelIdeal.main_v53) := by
    rw [Cert.ReferenceIdeal.Products.products_out, Cert.KernelIdeal.Result.afterRegion_out, d52, d3, d4, Cert.KernelIdeal.Gen.V_main_arg3, Cert.KernelIdeal.Gen.V_main_arg4]
  have p8 := (Cert.ReferenceIdeal.Products.products_keep_seg _).trans (d8.trans (Cert.KernelIdeal.Result.afterRegion_seg m c).symm)
  have p37 := (Cert.ReferenceIdeal.Products.products_keep_slot _).trans (d37.trans (Cert.KernelIdeal.Result.afterRegion_slot m c).symm)
  have p1 := (Cert.ReferenceIdeal.Products.products_keep_sortIdx _).trans (d1.trans (Cert.KernelIdeal.Result.afterRegion_sortIdx m c).symm)
  exact ⟨(h c Cert.ReferenceIdeal.main_arg0).trans ((Cert.ReferenceIdeal.Host.line_keeps_arg0 _).trans g0),
    (h c Cert.ReferenceIdeal.main_v80).trans (Cert.HostAgree.combine_agree (F := Ideal) (Cert.KernelIdeal.Result.afterRegion m c) _ p58 p8 p37 p1),
    (h c Cert.ReferenceIdeal.main_arg1).trans ((Cert.ReferenceIdeal.Host.line_keeps_arg1 _).trans g1),
    (h c Cert.ReferenceIdeal.main_v1).trans ((Cert.ReferenceIdeal.Host.combine_keeps_sortIdx _).trans ((Cert.ReferenceIdeal.Products.products_keep_sortIdx _).trans d1)),
    (h c Cert.ReferenceIdeal.main_arg0).trans (Cert.ReferenceIdeal.Host.line_keeps_arg0 _),
    (h c Cert.ReferenceIdeal.main_arg1).trans (Cert.ReferenceIdeal.Host.line_keeps_arg1 _),
    (h c Cert.ReferenceIdeal.main_arg2).trans (Cert.ReferenceIdeal.Host.line_keeps_arg2 _),
    (h c Cert.ReferenceIdeal.main_arg3).trans (Cert.ReferenceIdeal.Host.line_keeps_arg3 _),
    (h c Cert.ReferenceIdeal.main_arg4).trans (Cert.ReferenceIdeal.Host.line_keeps_arg4 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
